-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v15_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000x1 : Shape := ⟨2, ![50000, 1]⟩
abbrev S128x128 : Shape := ⟨2, ![128, 128]⟩
abbrev S128 : Shape := ⟨1, ![128]⟩
abbrev S256x128 : Shape := ⟨2, ![256, 128]⟩
abbrev S129x128 : Shape := ⟨2, ![129, 128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x1 : S_.BroadcastsInDim S50000x1 (![] : Fin 0 → Fin S50000x1.rank)
  reducesTo_S50000x1_S_d0_1 : S50000x1.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S129x128 : S_.BroadcastsInDim S129x128 (![] : Fin 0 → Fin S129x128.rank)
  reducesTo_S129x128_S_d0_1 : S129x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S128 .f32) (main_arg9 : FVec F S128x1 .f32) (main_arg10 : FVec F S1 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x1 .f32 := Host.absf main_arg9
  let main_cst_14 : FVec F S_ .f32 := constant S_ .f32 0x7F800000#32
  let main_v40 : FVec F S128x1 .f32 := broadcastInDim S128x1 ![] bcast_S_S128x1 main_cst_14
  let main_v41 : IVec S128x1 1 := cmpf .olt main_v39 main_v40
  let main_c_15 : IVec S_ 1 := constantI S_ 1 1#1
  let main_v42 : IVec S_ 1 := (fun x v => Host.reduce IntOp.andi x v reducesTo_S128x1_S_d0_1 h_S_) main_v41 main_c_15
  let main_v43 : IVec S_ 1 := andi main_v38 main_v42
  let main_v44 : FVec F S1 .f32 := Host.absf main_arg10
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg5 : FVec F S256x128 .f32) (main_arg6 : FVec F S128 .f32) (main_arg7 : FVec F S129x128 .f32) (main_arg8 : FVec F S128 .f32) (main_arg9 : FVec F S128x1 .f32) (main_arg10 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S129x128 .f32 := Host.absf main_arg7
  let main_cst_10 : FVec F S_ .f32 := constant S_ .f32 0x7F800000#32
  let main_v30 : FVec F S129x128 .f32 := broadcastInDim S129x128 ![] bcast_S_S129x128 main_cst_10
  let main_v31 : IVec S129x128 1 := cmpf .olt main_v29 main_v30
  let main_c_11 : IVec S_ 1 := constantI S_ 1 1#1
  let main_v32 : IVec S_ 1 := (fun x v => Host.reduce IntOp.andi x v reducesTo_S129x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : IVec S2x800000 32) (main_arg2 : FVec F S50000x1 .f32) (main_arg3 : FVec F S128x128 .f32) (main_arg4 : FVec F S128 .f32) (main_arg5 : FVec F S256x128 .f32) (main_arg6 : FVec F S128 .f32) (main_arg7 : FVec F S129x128 .f32) (main_arg8 : FVec F S128 .f32) (main_arg9 : FVec F S128x1 .f32) (main_arg10 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x1 .f32 := Host.absf main_arg2
  let main_cst_0 : FVec F S_ .f32 := constant S_ .f32 0x7F800000#32
  let main_v5 : FVec F S50000x1 .f32 := broadcastInDim S50000x1 ![] bcast_S_S50000x1 main_cst_0
  let main_v6 : IVec S50000x1 1 := cmpf .olt main_v4 main_v5
  let main_c_1 : IVec S_ 1 := constantI S_ 1 1#1
  let main_v7 : IVec S_ 1 := (fun x v => Host.reduce IntOp.andi x v reducesTo_S50000x1_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S50000x1 : Shape := ⟨2, ![50000, 1]⟩
abbrev S128x128 : Shape := ⟨2, ![128, 128]⟩
abbrev S128 : Shape := ⟨1, ![128]⟩
abbrev S256x128 : Shape := ⟨2, ![256, 128]⟩
abbrev S129x128 : Shape := ⟨2, ![129, 128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S2000x128 : Shape := ⟨2, ![2000, 128]⟩
abbrev S1x128 : Shape := ⟨2, ![1, 128]⟩
abbrev S_ : Shape := ⟨0, ![]⟩
abbrev S800000x1 : Shape := ⟨2, ![800000, 1]⟩
abbrev S800000x128 : Shape := ⟨2, ![800000, 128]⟩
abbrev S2000x1 : Shape := ⟨2, ![2000, 1]⟩
abbrev S2000x256 : Shape := ⟨2, ![2000, 256]⟩
abbrev S2000x129 : Shape := ⟨2, ![2000, 129]⟩
abbrev S1x1 : Shape := ⟨2, ![1, 1]⟩

abbrev nBuf : Space → Nat
  | .hbm => 31
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000x1, .f32⟩
  | .hbm, ⟨3, _⟩ => ⟨S128x128, .f32⟩
  | .hbm, ⟨4, _⟩ => ⟨S128, .f32⟩
  | .hbm, ⟨5, _⟩ => ⟨S256x128, .f32⟩
  | .hbm, ⟨6, _⟩ => ⟨S128, .f32⟩
  | .hbm, ⟨7, _⟩ => ⟨S129x128, .f32⟩
  | .hbm, ⟨8, _⟩ => ⟨S128, .f32⟩
  | .hbm, ⟨9, _⟩ => ⟨S128x1, .f32⟩
  | .hbm, ⟨10, _⟩ => ⟨S1, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S50000x128, .f32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x128, .f32⟩
  | .hbm, ⟨25, _⟩ => ⟨S_, .f32⟩
  | .hbm, ⟨26, _⟩ => ⟨S50000x128, .f32⟩
  | .hbm, ⟨27, _⟩ => ⟨S800000x1, .i32⟩
  | .hbm, ⟨28, _⟩ => ⟨S50000x128, .f32⟩
  | .hbm, ⟨29, _⟩ => ⟨S50000x128, .f32⟩
  | .hbm, ⟨30, _⟩ => ⟨S50000x1, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x1, .f32⟩
  | .local _ .vmem, ⟨11, _⟩ => ⟨S2000x1, .f32⟩
  | .local _ .vmem, ⟨12, _⟩ => ⟨S256x128, .f32⟩
  | .local _ .vmem, ⟨13, _⟩ => ⟨S128, .f32⟩
  | .local _ .vmem, ⟨14, _⟩ => ⟨S129x128, .f32⟩
  | .local _ .vmem, ⟨15, _⟩ => ⟨S128, .f32⟩
  | .local _ .vmem, ⟨16, _⟩ => ⟨S128x1, .f32⟩
  | .local _ .vmem, ⟨17, _⟩ => ⟨S1, .f32⟩
  | .local _ .vmem, ⟨18, _⟩ => ⟨S2000x128, .f32⟩
  | .local _ .vmem, ⟨19, _⟩ => ⟨S2000x128, .f32⟩
  | .local _ .vmem, ⟨20, _⟩ => ⟨S2000x1, .f32⟩
  | .local _ .vmem, ⟨21, _⟩ => ⟨S2000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15_0 : Ref sig .tc := ⟨.hbm, 29, rfl⟩
abbrev main_v15_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg9_0 : Ref sig .tc := ⟨.vmem, 18, rfl⟩
abbrev cc1_stg9_1 : Ref sig .tc := ⟨.vmem, 19, rfl⟩
abbrev cc1_stg10_0 : Ref sig .tc := ⟨.vmem, 20, rfl⟩
abbrev cc1_stg10_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem9_0 : DmaSem sig := 18
abbrev cc1_sem9_1 : DmaSem sig := 19
abbrev cc1_sem10_0 : DmaSem sig := 20
abbrev cc1_sem10_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S129x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S2000x1 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  concatenates_S2000x128_S2000x128_S2000x256_d1 : Shape.Concatenates [S2000x128, S2000x128] S2000x256 1
  inb_S256x128_S256x128_0_0 : ∀ a, (![0, 0] : Fin 2 → Nat) a + S256x128.size a ≤ S256x128.size a
  h_S256x128 : 0 < S256x128.numel
  concatenates_S2000x128_S2000x1_S2000x129_d1 : Shape.Concatenates [S2000x128, S2000x1] S2000x129 1
  inb_S129x128_S129x128_0_0 : ∀ a, (![0, 0] : Fin 2 → Nat) a + S129x128.size a ≤ S129x128.size a
  h_S129x128 : 0 < S129x128.numel
  inb_S128x1_S128x1_0_0 : ∀ a, (![0, 0] : Fin 2 → Nat) a + S128x1.size a ≤ S128x1.size a
  h_S128x1 : 0 < S128x1.numel
  inb_S1_S1_0 : ∀ a, (![0] : Fin 1 → Nat) a + S1.size a ≤ S1.size a
  h_S1 : 0 < S1.numel
  shapeCasts_S1_S1x1 : S1.ShapeCasts S1x1
  broadcasts_S1x1_S2000x1 : S1x1.Broadcasts S2000x1
  dot_S2000x128_S128x128_S2000x128_1_0_0_1_n_n_wf : DotDims.WF S2000x128 S128x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x256_S256x128_S2000x128_1_0_0_1_n_n_wf : DotDims.WF S2000x256 S256x128 S2000x128 [1] [0] [0] [1] [] []
  dot_S2000x129_S129x128_S2000x128_1_0_0_1_n_n_wf : DotDims.WF S2000x129 S129x128 S2000x128 [1] [0] [0] [1] [] []
  dot_S2000x128_S128x1_S2000x1_1_0_0_1_n_n_wf : DotDims.WF S2000x128 S128x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S129x128.size a ≤ S129x128.size a
  hwx1_5 : ∀ i : grid1.Coords, EltTy.bits .f32 = 32 ∨ (Rect.block (s := S129x128) S129x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x1.size a ≤ S128x1.size a
  hwx1_7 : ∀ i : grid1.Coords, EltTy.bits .f32 = 32 ∨ (Rect.block (s := S128x1) S128x1.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1.size a ≤ S1.size a
  hwx1_8 : ∀ i : grid1.Coords, EltTy.bits .f32 = 32 ∨ (Rect.block (s := S1) S1.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x128.size a ≤ S50000x128.size a
  hwx1_9 : ∀ i : grid1.Coords, EltTy.bits .f32 = 32 ∨ (Rect.block (s := S50000x128) S2000x128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S2000x1.size a ≤ S50000x1.size a
  hwx1_10 : ∀ i : grid1.Coords, EltTy.bits .f32 = 32 ∨ (Rect.block (s := S50000x1) S2000x1.size (cc1_transform_10 i) (hinb1_10 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x129_S129x128_S2000x128_1_0_0_1_n_n : DotDims S2000x129 S129x128 S2000x128 where
  lhsContracting := [1]
  rhsContracting := [0]
  lhsNonContracting := [0]
  rhsNonContracting := [1]
  lhsBatch := []
  rhsBatch := []
  wf := dot_S2000x129_S129x128_S2000x128_1_0_0_1_n_n_wf
def dot_S2000x128_S128x1_S2000x1_1_0_0_1_n_n : DotDims S2000x128 S128x1 S2000x1 where
  lhsContracting := [1]
  rhsContracting := [0]
  lhsNonContracting := [0]
  rhsNonContracting := [1]
  lhsBatch := []
  rhsBatch := []
  wf := dot_S2000x128_S128x1_S2000x1_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S129x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg8) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg9) S128x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg10) S1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v15_0) S2000x128.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v15_1) S2000x1.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000x1 : Shape := ⟨2, ![50000, 1]⟩
abbrev S128x128 : Shape := ⟨2, ![128, 128]⟩
abbrev S128 : Shape := ⟨1, ![128]⟩
abbrev S256x128 : Shape := ⟨2, ![256, 128]⟩
abbrev S129x128 : Shape := ⟨2, ![129, 128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S1x128 : Shape := ⟨2, ![1, 128]⟩
abbrev S_ : Shape := ⟨0, ![]⟩
abbrev S800000x1 : Shape := ⟨2, ![800000, 1]⟩
abbrev S800000x128 : Shape := ⟨2, ![800000, 128]⟩
abbrev S50000x256 : Shape := ⟨2, ![50000, 256]⟩
abbrev S50000x129 : Shape := ⟨2, ![50000, 129]⟩
abbrev S1x1 : Shape := ⟨2, ![1, 1]⟩

abbrev nBuf : Space → Nat
  | .hbm => 60
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000x1, .f32⟩
  | .hbm, ⟨3, _⟩ => ⟨S128x128, .f32⟩
  | .hbm, ⟨4, _⟩ => ⟨S128, .f32⟩
  | .hbm, ⟨5, _⟩ => ⟨S256x128, .f32⟩
  | .hbm, ⟨6, _⟩ => ⟨S128, .f32⟩
  | .hbm, ⟨7, _⟩ => ⟨S129x128, .f32⟩
  | .hbm, ⟨8, _⟩ => ⟨S128, .f32⟩
  | .hbm, ⟨9, _⟩ => ⟨S128x1, .f32⟩
  | .hbm, ⟨10, _⟩ => ⟨S1, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S50000x128, .f32⟩
  | .hbm, ⟨16, _⟩ => ⟨S1x128, .f32⟩
  | .hbm, ⟨17, _⟩ => ⟨S50000x128, .f32⟩
  | .hbm, ⟨18, _⟩ => ⟨S50000x128, .f32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000x128, .f32⟩
  | .hbm, ⟨28, _⟩ => ⟨S_, .f32⟩
  | .hbm, ⟨29, _⟩ => ⟨S50000x128, .f32⟩
  | .hbm, ⟨30, _⟩ => ⟨S800000x1, .i32⟩
  | .hbm, ⟨31, _⟩ => ⟨S50000x128, .f32⟩
  | .hbm, ⟨32, _⟩ => ⟨S50000x256, .f32⟩
  | .hbm, ⟨33, _⟩ => ⟨S50000x128, .f32⟩
  | .hbm, ⟨34, _⟩ => ⟨S1x128, .f32⟩
  | .hbm, ⟨35, _⟩ => ⟨S50000x128, .f32⟩
  | .hbm, ⟨36, _⟩ => ⟨S50000x128, .f32⟩
  | .hbm, ⟨37, _⟩ => ⟨S50000x129, .f32⟩
  | .hbm, ⟨38, _⟩ => ⟨S50000x128, .f32⟩
  | .hbm, ⟨39, _⟩ => ⟨S1x128, .f32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S50000x128, .f32⟩
  | .hbm, ⟨44, _⟩ => ⟨S_, .f32⟩
  | .hbm, ⟨45, _⟩ => ⟨S50000x128, .f32⟩
  | .hbm, ⟨46, _⟩ => ⟨S50000x128, .f32⟩
  | .hbm, ⟨47, _⟩ => ⟨S_, .f32⟩
  | .hbm, ⟨48, _⟩ => ⟨S50000x128, .f32⟩
  | .hbm, ⟨49, _⟩ => ⟨S50000x128, .f32⟩
  | .hbm, ⟨50, _⟩ => ⟨S50000x128, .f32⟩
  | .hbm, ⟨51, _⟩ => ⟨S_, .f32⟩
  | .hbm, ⟨52, _⟩ => ⟨S50000x128, .f32⟩
  | .hbm, ⟨53, _⟩ => ⟨S50000x128, .f32⟩
  | .hbm, ⟨54, _⟩ => ⟨S50000x128, .f32⟩
  | .hbm, ⟨55, _⟩ => ⟨S50000x128, .f32⟩
  | .hbm, ⟨56, _⟩ => ⟨S50000x1, .f32⟩
  | .hbm, ⟨57, _⟩ => ⟨S1x1, .f32⟩
  | .hbm, ⟨58, _⟩ => ⟨S50000x1, .f32⟩
  | .hbm, ⟨59, _⟩ => ⟨S50000x1, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c : Ref sig .tc := ⟨.hbm, 19, rfl⟩
abbrev main_v8 : Ref sig .tc := ⟨.hbm, 20, rfl⟩
abbrev main_v9 : Ref sig .tc := ⟨.hbm, 21, rfl⟩
abbrev main_c_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_1 : Ref sig .tc := ⟨.hbm, 44, rfl⟩
abbrev main_v30 : Ref sig .tc := ⟨.hbm, 45, rfl⟩
abbrev main_v31 : Ref sig .tc := ⟨.hbm, 46, rfl⟩
abbrev main_cst_2 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_3 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  concatenates_S50000x128_S50000x128_S50000x256_d1 : Shape.Concatenates [S50000x128, S50000x128] S50000x256 1
  concatenates_S50000x128_S50000x1_S50000x129_d1 : Shape.Concatenates [S50000x128, S50000x1] S50000x129 1
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x256_S256x128_S50000x128_1_0_0_1_n_n_wf : DotDims.WF S50000x256 S256x128 S50000x128 [1] [0] [0] [1] [] []
  dot_S50000x129_S129x128_S50000x128_1_0_0_1_n_n_wf : DotDims.WF S50000x129 S129x128 S50000x128 [1] [0] [0] [1] [] []
  dot_S50000x128_S128x1_S50000x1_1_0_0_1_n_n_wf : DotDims.WF S50000x128 S128x1 S50000x1 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x129_S129x128_S50000x128_1_0_0_1_n_n : DotDims S50000x129 S129x128 S50000x128 where
  lhsContracting := [1]
  rhsContracting := [0]
  lhsNonContracting := [0]
  rhsNonContracting := [1]
  lhsBatch := []
  rhsBatch := []
  wf := dot_S50000x129_S129x128_S50000x128_1_0_0_1_n_n_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.LibSsa.lean ====
/-
  A straight line of host operations in single-assignment order. The TensorCore references of a program are numbered;
  the line's operations write the references n, n + 1, n + 2, … in this order, one each, and each operation reads
  only references numbered below its own. Then (1) a reference numbered below n keeps its contents through the whole
  line, and (2) the contents F after the line are a fixed point of every operation of the line: run again on F,
  an operation rewrites its result with what F already holds there, because what it reads was final when it ran. So
  each operation's defining equation holds of the final contents, the shared intermediate values named once.
-/
import Idealize.ShloMosaic.Lib.StableHlo.Run

noncomputable section

namespace Idealize.ShloMosaic.StableHlo.Ssa

open Idealize.ShloMosaic Idealize.ShloMosaic.StableHlo

variable {τ : Topo} {sig : RefSig} {Val : EltTy → Type}

/-- The number of a TensorCore reference: its index in its space. -/
abbrev key (r : Ref sig .tc) : Nat := r.idx.val

/-- An operation that is step `n` of a single-assignment line: it changes no reference numbered otherwise, and what it
    leaves at the reference numbered `n` depends on the contents before it only through references numbered below `n`. -/
def Step (n : Nat) (op : HloOp τ sig Val) : Prop :=
  (∀ (X : Valuation τ sig Val) (r : Ref sig .tc), key r ≠ n → op.result X (Proc.devRef .tc r) = X (Proc.devRef .tc r)) ∧
  (∀ (X X' : Valuation τ sig Val), (∀ r : Ref sig .tc, key r < n → X (Proc.devRef .tc r) = X' (Proc.devRef .tc r)) →
    ∀ r : Ref sig .tc, key r = n → op.result X (Proc.devRef .tc r) = op.result X' (Proc.devRef .tc r))

/-- A line whose operations are the steps n, n + 1, … in order. -/
def Chain : Nat → List (HloOp τ sig Val) → Prop
  | _, [] => True
  | n, op :: ops => Step n op ∧ Chain (n + 1) ops

theorem chain_append {n : Nat} (l₁ l₂ : List (HloOp τ sig Val)) (h₁ : Chain n l₁) (h₂ : Chain (n + l₁.length) l₂) :
    Chain n (l₁ ++ l₂) := by
  induction l₁ generalizing n with
  | nil => simpa using h₂
  | cons op l ih =>
    refine ⟨h₁.1, ih h₁.2 ?_⟩
    have e : n + 1 + l.length = n + (op :: l).length := by simp only [List.length_cons]; omega
    rw [e]; exact h₂

/-- A reference numbered below the line's first step keeps its contents. -/
theorem after_below {n : Nat} {ops : List (HloOp τ sig Val)} (h : Chain n ops) (X : Valuation τ sig Val) (r : Ref sig .tc)
    (hr : key r < n) : after ops X (Proc.devRef .tc r) = X (Proc.devRef .tc r) := by
  induction ops generalizing n X with
  | nil => rfl
  | cons op ops ih =>
    rw [after_cons, ih h.2 _ (Nat.lt_succ_of_lt hr)]
    exact h.1.1 X r (Nat.ne_of_lt hr)

/-- The contents after the line are a fixed point of each of its operations. -/
theorem fixed {n : Nat} {ops : List (HloOp τ sig Val)} (h : Chain n ops) (X : Valuation τ sig Val) :
    ∀ op ∈ ops, ∀ r : Ref sig .tc, op.result (after ops X) (Proc.devRef .tc r) = after ops X (Proc.devRef .tc r) := by
  induction ops generalizing n X with
  | nil => intro op hop; exact absurd hop (List.not_mem_nil)
  | cons op ops ih =>
    intro op' hop' r
    rcases List.mem_cons.mp hop' with rfl | hmem
    · by_cases hr : key r = n
      · rw [h.1.2 (after (op' :: ops) X) X (fun r' hr' => after_below h X r' hr') r hr, after_cons,
          after_below h.2 _ r (by omega)]
      · exact h.1.1 _ r hr
    · rw [after_cons]
      exact ih h.2 _ op' hmem r

section Builders

variable (hinj : ∀ r r' : Ref sig .tc, key r = key r' → r = r')
include hinj

theorem step_nullary (y : Ref sig .tc) (v : y.ty.Contents Val) (hy) (n : Nat) (hyn : key y = n) :
    Step n (nullary (τ := τ) y v hy) := by
  refine ⟨fun X r hr => nullary_result_ne y v hy X (fun e => hr (e ▸ hyn)), fun X X' _ r hr => ?_⟩
  obtain rfl : r = y := hinj _ _ (hr.trans hyn.symm)
  exact (nullary_result r v hy X).trans (nullary_result r v hy X').symm

theorem step_unary (x y : Ref sig .tc) (f : x.ty.Contents Val → y.ty.Contents Val) (hx hy) (n : Nat) (hyn : key y = n)
    (hxn : key x < n) : Step n (unary (τ := τ) x y f hx hy) := by
  refine ⟨fun X r hr => unary_result_ne x y f hx hy X (fun e => hr (e ▸ hyn)), fun X X' hX r hr => ?_⟩
  obtain rfl : r = y := hinj _ _ (hr.trans hyn.symm)
  refine (unary_result x r f hx hy X).trans (Eq.trans ?_ (unary_result x r f hx hy X').symm)
  exact congrArg f (hX x hxn)

theorem step_binary (a b y : Ref sig .tc) (f : a.ty.Contents Val → b.ty.Contents Val → y.ty.Contents Val) (ha hb hy) (n : Nat)
    (hyn : key y = n) (han : key a < n) (hbn : key b < n) : Step n (binary (τ := τ) a b y f ha hb hy) := by
  refine ⟨fun X r hr => binary_result_ne a b y f ha hb hy X (fun e => hr (e ▸ hyn)), fun X X' hX r hr => ?_⟩
  obtain rfl : r = y := hinj _ _ (hr.trans hyn.symm)
  refine (binary_result a b r f ha hb hy X).trans (Eq.trans ?_ (binary_result a b r f ha hb hy X').symm)
  exact congrArg₂ f (hX a han) (hX b hbn)

theorem step_reshape (x y : Ref sig .tc) (he : x.ty.elt = y.ty.elt) (hn : x.ty.shape.ShapeCasts y.ty.shape) (hx hy) (n : Nat)
    (hyn : key y = n) (hxn : key x < n) : Step n (reshape (τ := τ) (Val := Val) x y he hn hx hy) := by
  refine ⟨fun X r hr => reshape_result_ne x y he hn hx hy X (fun e => hr (e ▸ hyn)), fun X X' hX r hr => ?_⟩
  obtain rfl : r = y := hinj _ _ (hr.trans hyn.symm)
  refine (reshape_result x r he hn hx hy X).trans (Eq.trans ?_ (reshape_result x r he hn hx hy X').symm)
  have e : X (Proc.devRef .tc x) = X' (Proc.devRef .tc x) := hX x hxn
  show (fun i => he ▸ shapeCast r.ty.shape (X (Proc.devRef .tc x)) hn i) = fun i => he ▸ shapeCast r.ty.shape (X' (Proc.devRef .tc x)) hn i
  rw [e]

end Builders

end Idealize.ShloMosaic.StableHlo.Ssa

end
-- ==== Proof.LibSsaMore.lean ====
/-
  More on a straight line of host operations in single-assignment order (LibSsa.lean): an operation of three operands as
  a step of such a line, and, for each kind of operation, the equation the line's final contents satisfy at the
  reference the operation writes: the final contents there are the operation's function of the final contents of its
  operands. A value named once is then read once, however many later operations use it.
-/
import proofs.«155361_j71459665871600_1_alg».proof.Proof.LibSsa

noncomputable section

namespace Idealize.ShloMosaic.StableHlo.Ssa

open Idealize.ShloMosaic Idealize.ShloMosaic.StableHlo

variable {τ : Topo} {sig : RefSig} {Val : EltTy → Type}

theorem step_ternary (hinj : ∀ r r' : Ref sig .tc, key r = key r' → r = r') (c a b y : Ref sig .tc)
    (f : c.ty.Contents Val → a.ty.Contents Val → b.ty.Contents Val → y.ty.Contents Val) (hc ha hb hy) (n : Nat)
    (hyn : key y = n) (hcn : key c < n) (han : key a < n) (hbn : key b < n) :
    Step n (ternary (τ := τ) c a b y f hc ha hb hy) := by
  refine ⟨fun X r hr => ternary_result_ne a b c y f hc ha hb hy X (fun e => hr (e ▸ hyn)), fun X X' hX r hr => ?_⟩
  obtain rfl : r = y := hinj _ _ (hr.trans hyn.symm)
  refine (ternary_result c a b r f hc ha hb hy X).trans (Eq.trans ?_ (ternary_result c a b r f hc ha hb hy X').symm)
  rw [hX c hcn, hX a han, hX b hbn]

section Final

variable {n : Nat} {ops : List (HloOp τ sig Val)} (h : Chain n ops) (X : Valuation τ sig Val)
include h

/-- A constant's reference ends at the constant. -/
theorem final_nullary (y : Ref sig .tc) (v : y.ty.Contents Val) (hy) (hmem : nullary (τ := τ) y v hy ∈ ops) :
    after ops X (Proc.devRef .tc y) = v :=
  (fixed h X _ hmem y).symm.trans (nullary_result y v hy _)

/-- A one-operand operation's reference ends at its function of the operand's final contents. -/
theorem final_unary (x y : Ref sig .tc) (f : x.ty.Contents Val → y.ty.Contents Val) (hx hy)
    (hmem : unary (τ := τ) x y f hx hy ∈ ops) :
    after ops X (Proc.devRef .tc y) = f (after ops X (Proc.devRef .tc x)) :=
  (fixed h X _ hmem y).symm.trans (unary_result x y f hx hy _)

/-- A two-operand operation's reference ends at its function of the operands' final contents. -/
theorem final_binary (a b y : Ref sig .tc) (f : a.ty.Contents Val → b.ty.Contents Val → y.ty.Contents Val) (ha hb hy)
    (hmem : binary (τ := τ) a b y f ha hb hy ∈ ops) :
    after ops X (Proc.devRef .tc y) = f (after ops X (Proc.devRef .tc a)) (after ops X (Proc.devRef .tc b)) :=
  (fixed h X _ hmem y).symm.trans (binary_result a b y f ha hb hy _)

/-- A three-operand operation's reference ends at its function of the operands' final contents. -/
theorem final_ternary (c a b y : Ref sig .tc)
    (f : c.ty.Contents Val → a.ty.Contents Val → b.ty.Contents Val → y.ty.Contents Val) (hc ha hb hy)
    (hmem : ternary (τ := τ) c a b y f hc ha hb hy ∈ ops) :
    after ops X (Proc.devRef .tc y)
      = f (after ops X (Proc.devRef .tc c)) (after ops X (Proc.devRef .tc a)) (after ops X (Proc.devRef .tc b)) :=
  (fixed h X _ hmem y).symm.trans (ternary_result c a b y f hc ha hb hy _)

/-- A reshape's reference ends at the operand's final contents, relaid. -/
theorem final_reshape (x y : Ref sig .tc) (he : x.ty.elt = y.ty.elt) (hn : x.ty.shape.ShapeCasts y.ty.shape) (hx hy)
    (hmem : reshape (τ := τ) (Val := Val) x y he hn hx hy ∈ ops) :
    after ops X (Proc.devRef .tc y) = fun i => he ▸ shapeCast y.ty.shape (after ops X (Proc.devRef .tc x)) hn i :=
  (fixed h X _ hmem y).symm.trans (reshape_result x y he hn hx hy _)

end Final

end Idealize.ShloMosaic.StableHlo.Ssa

end
-- ==== Proof.RefChain.lean ====
/-
  The reference program's operations as a single-assignment line, and its arguments after the run.

  The reference's @main is a straight line of 49 host operations in single-assignment order: the arguments are the
  buffers numbered 0 to 10, operation k writes the buffer numbered 11 + k once, and reads only buffers numbered below
  it. So after the whole line each argument holds what it held at launch, and each written buffer holds its
  operation's function of what its operands hold after the whole line (LibSsa.lean, LibSsaMore.lean). Read in program
  order, that gives each buffer's final contents as the stage function `val_main_vN` of the launch arguments, every
  shared intermediate value named once.
-/
import proofs.«155361_j71459665871600_1_alg».proof.Proof.RefRead
import proofs.«155361_j71459665871600_1_alg».proof.Proof.LibSsaMore

noncomputable section

namespace Cert.RefFinal

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo
open Idealize.ShloMosaic.StableHlo.Ssa

variable {F : FTy → Type} [FloatOps F]

/-- The reference's buffers are told apart by their numbers. -/
theorem key_inj : ∀ r r' : Ref sig .tc, key r = key r' → r = r' := by decide

set_option maxRecDepth 8192 in
set_option maxHeartbeats 4000000 in
/-- The 49 operations are the steps 11, 12, …, 59 of a single-assignment line. -/
theorem chain : Chain 11 (ops (F := F)) := by
  have cons : ∀ {n : Nat} {op : HloOp τ sig (Elt F)} {l : List (HloOp τ sig (Elt F))},
      Step n op → Chain (n + 1) l → Chain n (op :: l) := fun h₁ h₂ => ⟨h₁, h₂⟩
  iterate 49 (refine cons ?_ ?_; swap)
  · exact trivial
  all_goals (first
    | apply step_nullary key_inj
    | apply step_unary key_inj
    | apply step_reshape key_inj
    | apply step_binary key_inj
    | apply step_ternary key_inj)
  all_goals first | rfl | decide

set_option maxRecDepth 8192 in
/-- The line has 49 operations. -/
theorem ops_length : (ops (F := F)).length = 49 := rfl

/-- Operation k of the line is one of the line's operations. -/
theorem op_mem (k : Nat) (hk : k < 49) : (ops (F := F))[k]'(ops_length (F := F) ▸ hk) ∈ ops (F := F) := List.getElem_mem _

variable (m : (ℓ : Loc nD τ sig) → Buf (Elt F) ℓ) (c : Dev nD)

-- core c's buffers after the whole line, from the launch contents
local notation "fin" => after (ops (F := F)) (launchContents m c)

/-! ## The arguments are as launched -/

theorem fin_arg0 : fin (Proc.devRef .tc main_arg0) = m ((c.tc : Thread nD τ).loc main_arg0) :=
  after_below chain _ main_arg0 (by decide)
theorem fin_arg1 : fin (Proc.devRef .tc main_arg1) = m ((c.tc : Thread nD τ).loc main_arg1) :=
  after_below chain _ main_arg1 (by decide)
theorem fin_arg2 : fin (Proc.devRef .tc main_arg2) = m ((c.tc : Thread nD τ).loc main_arg2) :=
  after_below chain _ main_arg2 (by decide)
theorem fin_arg3 : fin (Proc.devRef .tc main_arg3) = m ((c.tc : Thread nD τ).loc main_arg3) :=
  after_below chain _ main_arg3 (by decide)
theorem fin_arg4 : fin (Proc.devRef .tc main_arg4) = m ((c.tc : Thread nD τ).loc main_arg4) :=
  after_below chain _ main_arg4 (by decide)
theorem fin_arg5 : fin (Proc.devRef .tc main_arg5) = m ((c.tc : Thread nD τ).loc main_arg5) :=
  after_below chain _ main_arg5 (by decide)
theorem fin_arg6 : fin (Proc.devRef .tc main_arg6) = m ((c.tc : Thread nD τ).loc main_arg6) :=
  after_below chain _ main_arg6 (by decide)
theorem fin_arg7 : fin (Proc.devRef .tc main_arg7) = m ((c.tc : Thread nD τ).loc main_arg7) :=
  after_below chain _ main_arg7 (by decide)
theorem fin_arg8 : fin (Proc.devRef .tc main_arg8) = m ((c.tc : Thread nD τ).loc main_arg8) :=
  after_below chain _ main_arg8 (by decide)
theorem fin_arg9 : fin (Proc.devRef .tc main_arg9) = m ((c.tc : Thread nD τ).loc main_arg9) :=
  after_below chain _ main_arg9 (by decide)
theorem fin_arg10 : fin (Proc.devRef .tc main_arg10) = m ((c.tc : Thread nD τ).loc main_arg10) :=
  after_below chain _ main_arg10 (by decide)

end Cert.RefFinal

end
-- ==== Proof.RefStages.lean ====
/-
  The reference program's buffers after its run, in program order.

  Each written buffer's final contents are its operation's function of its operands' final contents (the line is in
  single-assignment order: RefChain.lean), so, read in program order, buffer main_vN ends at the stage function
  val_main_vN of the launch arguments; the last two written are the program's results.
-/
import proofs.«155361_j71459665871600_1_alg».proof.Proof.RefChain

noncomputable section

namespace Cert.RefFinal

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo
open Idealize.ShloMosaic.StableHlo.Ssa

variable {F : FTy → Type} [FloatOps F]

variable (m : (ℓ : Loc nD τ sig) → Buf (Elt F) ℓ) (c : Dev nD)

-- core c's buffers after the whole line, from the launch contents
local notation "fin" => after (ops (F := F)) (launchContents m c)

-- the launch arguments, by the names the stage functions give them
set_option quotPrecheck false
local notation "A0" => m ((c.tc : Thread nD τ).loc main_arg0)
local notation "A1" => m ((c.tc : Thread nD τ).loc main_arg1)
local notation "A2" => m ((c.tc : Thread nD τ).loc main_arg2)
local notation "A3" => m ((c.tc : Thread nD τ).loc main_arg3)
local notation "A4" => m ((c.tc : Thread nD τ).loc main_arg4)
local notation "A5" => m ((c.tc : Thread nD τ).loc main_arg5)
local notation "A6" => m ((c.tc : Thread nD τ).loc main_arg6)
local notation "A7" => m ((c.tc : Thread nD τ).loc main_arg7)
local notation "A8" => m ((c.tc : Thread nD τ).loc main_arg8)
local notation "A9" => m ((c.tc : Thread nD τ).loc main_arg9)
local notation "A10" => m ((c.tc : Thread nD τ).loc main_arg10)
set_option quotPrecheck true

theorem fin_v0 : fin (Proc.devRef .tc main_v0) = val_main_v0 (F := F) A1 := by
  have h := final_unary chain (launchContents m c) main_arg1 main_v0 ((extractStridedSlice S1x800000 ![0, 0] · slices_S2x800000_S1x800000_0_0) : (⟨S2x800000, .i32⟩ : BufTy).Contents (Elt F) → (⟨S1x800000, .i32⟩ : BufTy).Contents (Elt F)) (by decide) (by decide) (op_mem 0 (by decide))
  rw [fin_arg1] at h
  exact h

theorem fin_v1 : fin (Proc.devRef .tc main_v1) = val_main_v1 (F := F) A1 := by
  have h := final_reshape chain (launchContents m c) main_v0 main_v1 rfl shapeCasts_S1x800000_S800000 (by decide) (by decide) (op_mem 1 (by decide))
  rw [fin_v0] at h
  exact h

theorem fin_v2 : fin (Proc.devRef .tc main_v2) = val_main_v2 (F := F) A1 := by
  have h := final_unary chain (launchContents m c) main_arg1 main_v2 ((extractStridedSlice S1x800000 ![1, 0] · slices_S2x800000_S1x800000_1_0) : (⟨S2x800000, .i32⟩ : BufTy).Contents (Elt F) → (⟨S1x800000, .i32⟩ : BufTy).Contents (Elt F)) (by decide) (by decide) (op_mem 2 (by decide))
  rw [fin_arg1] at h
  exact h

theorem fin_v3 : fin (Proc.devRef .tc main_v3) = val_main_v3 (F := F) A1 := by
  have h := final_reshape chain (launchContents m c) main_v2 main_v3 rfl shapeCasts_S1x800000_S800000 (by decide) (by decide) (op_mem 3 (by decide))
  rw [fin_v2] at h
  exact h

theorem fin_v4 : fin (Proc.devRef .tc main_v4) = val_main_v4 (F := F) A0 A3 := by
  have h := final_binary chain (launchContents m c) main_arg0 main_arg3 main_v4 _ (by decide) (by decide) (by decide) (op_mem 4 (by decide))
  rw [fin_arg0, fin_arg3] at h
  exact h

theorem fin_v5 : fin (Proc.devRef .tc main_v5) = val_main_v5 (F := F) A4 := by
  have h := final_unary chain (launchContents m c) main_arg4 main_v5 _ (by decide) (by decide) (op_mem 5 (by decide))
  rw [fin_arg4] at h
  exact h

theorem fin_v6 : fin (Proc.devRef .tc main_v6) = val_main_v6 (F := F) A4 := by
  have h := final_unary chain (launchContents m c) main_v5 main_v6 _ (by decide) (by decide) (op_mem 6 (by decide))
  rw [fin_v5] at h
  exact h

theorem fin_v7 : fin (Proc.devRef .tc main_v7) = val_main_v7 (F := F) A0 A3 A4 := by
  have h := final_binary chain (launchContents m c) main_v4 main_v6 main_v7 _ (by decide) (by decide) (by decide) (op_mem 7 (by decide))
  rw [fin_v4, fin_v6] at h
  exact h

theorem fin_c : fin (Proc.devRef .tc main_c) = val_main_c (F := F) := by
  have h := final_nullary chain (launchContents m c) main_c _ (by decide) (op_mem 8 (by decide))
  exact h

theorem fin_v8 : fin (Proc.devRef .tc main_v8) = val_main_v8 (F := F) := by
  have h := final_unary chain (launchContents m c) main_c main_v8 _ (by decide) (by decide) (op_mem 9 (by decide))
  rw [fin_c] at h
  exact h

theorem fin_v9 : fin (Proc.devRef .tc main_v9) = val_main_v9 (F := F) A1 := by
  have h := final_binary chain (launchContents m c) main_v1 main_v8 main_v9 _ (by decide) (by decide) (by decide) (op_mem 10 (by decide))
  rw [fin_v1, fin_v8] at h
  exact h

theorem fin_c_0 : fin (Proc.devRef .tc main_c_0) = val_main_c_0 (F := F) := by
  have h := final_nullary chain (launchContents m c) main_c_0 _ (by decide) (op_mem 11 (by decide))
  exact h

theorem fin_v10 : fin (Proc.devRef .tc main_v10) = val_main_v10 (F := F) := by
  have h := final_unary chain (launchContents m c) main_c_0 main_v10 _ (by decide) (by decide) (op_mem 12 (by decide))
  rw [fin_c_0] at h
  exact h

theorem fin_v11 : fin (Proc.devRef .tc main_v11) = val_main_v11 (F := F) A1 := by
  have h := final_binary chain (launchContents m c) main_v1 main_v10 main_v11 _ (by decide) (by decide) (by decide) (op_mem 13 (by decide))
  rw [fin_v1, fin_v10] at h
  exact h

theorem fin_v12 : fin (Proc.devRef .tc main_v12) = val_main_v12 (F := F) A1 := by
  have h := final_ternary chain (launchContents m c) main_v9 main_v11 main_v1 main_v12 _ (by decide) (by decide) (by decide) (by decide) (op_mem 14 (by decide))
  rw [fin_v9, fin_v11, fin_v1] at h
  exact h

theorem fin_v13 : fin (Proc.devRef .tc main_v13) = val_main_v13 (F := F) A1 := by
  have h := final_unary chain (launchContents m c) main_v12 main_v13 _ (by decide) (by decide) (op_mem 15 (by decide))
  rw [fin_v12] at h
  exact h

theorem fin_v14 : fin (Proc.devRef .tc main_v14) = val_main_v14 (F := F) A0 A1 A3 A4 := by
  have h := final_binary chain (launchContents m c) main_v7 main_v13 main_v14 _ (by decide) (by decide) (by decide) (op_mem 16 (by decide))
  rw [fin_v7, fin_v13] at h
  exact h

theorem fin_cst : fin (Proc.devRef .tc main_cst) = val_main_cst (F := F) := by
  have h := final_nullary chain (launchContents m c) main_cst _ (by decide) (op_mem 17 (by decide))
  exact h

theorem fin_v15 : fin (Proc.devRef .tc main_v15) = val_main_v15 (F := F) := by
  have h := final_unary chain (launchContents m c) main_cst main_v15 _ (by decide) (by decide) (op_mem 18 (by decide))
  rw [fin_cst] at h
  exact h

theorem fin_v16 : fin (Proc.devRef .tc main_v16) = val_main_v16 (F := F) A1 := by
  have h := final_unary chain (launchContents m c) main_v3 main_v16 _ (by decide) (by decide) (op_mem 19 (by decide))
  rw [fin_v3] at h
  exact h

theorem fin_v17 : fin (Proc.devRef .tc main_v17) = val_main_v17 (F := F) A0 A1 A3 A4 := by
  have h := final_ternary chain (launchContents m c) main_v15 main_v16 main_v14 main_v17 _ (by decide) (by decide) (by decide) (by decide) (op_mem 20 (by decide))
  rw [fin_v15, fin_v16, fin_v14] at h
  exact h

theorem fin_v18 : fin (Proc.devRef .tc main_v18) = val_main_v18 (F := F) A0 A1 A3 A4 := by
  have h := final_binary chain (launchContents m c) main_arg0 main_v17 main_v18 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)) (by decide) (by decide) (by decide) (op_mem 21 (by decide))
  rw [fin_arg0, fin_v17] at h
  exact h

theorem fin_v19 : fin (Proc.devRef .tc main_v19) = val_main_v19 (F := F) A0 A1 A3 A4 A5 := by
  have h := final_binary chain (launchContents m c) main_v18 main_arg5 main_v19 _ (by decide) (by decide) (by decide) (op_mem 22 (by decide))
  rw [fin_v18, fin_arg5] at h
  exact h

theorem fin_v20 : fin (Proc.devRef .tc main_v20) = val_main_v20 (F := F) A6 := by
  have h := final_unary chain (launchContents m c) main_arg6 main_v20 _ (by decide) (by decide) (op_mem 23 (by decide))
  rw [fin_arg6] at h
  exact h

theorem fin_v21 : fin (Proc.devRef .tc main_v21) = val_main_v21 (F := F) A6 := by
  have h := final_unary chain (launchContents m c) main_v20 main_v21 _ (by decide) (by decide) (op_mem 24 (by decide))
  rw [fin_v20] at h
  exact h

theorem fin_v22 : fin (Proc.devRef .tc main_v22) = val_main_v22 (F := F) A0 A1 A3 A4 A5 A6 := by
  have h := final_binary chain (launchContents m c) main_v19 main_v21 main_v22 _ (by decide) (by decide) (by decide) (op_mem 25 (by decide))
  rw [fin_v19, fin_v21] at h
  exact h

theorem fin_v23 : fin (Proc.devRef .tc main_v23) = val_main_v23 (F := F) A0 A1 A2 A3 A4 A5 A6 := by
  have h := final_binary chain (launchContents m c) main_v22 main_arg2 main_v23 ((fun a b => concatenate S50000x129 1 [⟨S50000x128, a⟩, ⟨S50000x1, b⟩] concatenates_S50000x128_S50000x1_S50000x129_d1) : (⟨S50000x128, .f32⟩ : BufTy).Contents (Elt F) → (⟨S50000x1, .f32⟩ : BufTy).Contents (Elt F) → (⟨S50000x129, .f32⟩ : BufTy).Contents (Elt F)) (by decide) (by decide) (by decide) (op_mem 26 (by decide))
  rw [fin_v22, fin_arg2] at h
  exact h

theorem fin_v24 : fin (Proc.devRef .tc main_v24) = val_main_v24 (F := F) A0 A1 A2 A3 A4 A5 A6 A7 := by
  have h := final_binary chain (launchContents m c) main_v23 main_arg7 main_v24 _ (by decide) (by decide) (by decide) (op_mem 27 (by decide))
  rw [fin_v23, fin_arg7] at h
  exact h

theorem fin_v25 : fin (Proc.devRef .tc main_v25) = val_main_v25 (F := F) A8 := by
  have h := final_unary chain (launchContents m c) main_arg8 main_v25 _ (by decide) (by decide) (op_mem 28 (by decide))
  rw [fin_arg8] at h
  exact h

theorem fin_v26 : fin (Proc.devRef .tc main_v26) = val_main_v26 (F := F) A8 := by
  have h := final_unary chain (launchContents m c) main_v25 main_v26 _ (by decide) (by decide) (op_mem 29 (by decide))
  rw [fin_v25] at h
  exact h

theorem fin_v27 : fin (Proc.devRef .tc main_v27) = val_main_v27 (F := F) A0 A1 A2 A3 A4 A5 A6 A7 A8 := by
  have h := final_binary chain (launchContents m c) main_v24 main_v26 main_v27 _ (by decide) (by decide) (by decide) (op_mem 30 (by decide))
  rw [fin_v24, fin_v26] at h
  exact h

theorem fin_v28 : fin (Proc.devRef .tc main_v28) = val_main_v28 (F := F) A0 A1 A2 A3 A4 A5 A6 A7 A8 := by
  have h := final_unary chain (launchContents m c) main_v27 main_v28 _ (by decide) (by decide) (op_mem 31 (by decide))
  rw [fin_v27] at h
  exact h

theorem fin_v29 : fin (Proc.devRef .tc main_v29) = val_main_v29 (F := F) A0 A1 A2 A3 A4 A5 A6 A7 A8 := by
  have h := final_unary chain (launchContents m c) main_v28 main_v29 _ (by decide) (by decide) (op_mem 32 (by decide))
  rw [fin_v28] at h
  exact h

theorem fin_cst_1 : fin (Proc.devRef .tc main_cst_1) = val_main_cst_1 (F := F) := by
  have h := final_nullary chain (launchContents m c) main_cst_1 _ (by decide) (op_mem 33 (by decide))
  exact h

theorem fin_v30 : fin (Proc.devRef .tc main_v30) = val_main_v30 (F := F) := by
  have h := final_unary chain (launchContents m c) main_cst_1 main_v30 _ (by decide) (by decide) (op_mem 34 (by decide))
  rw [fin_cst_1] at h
  exact h

theorem fin_v31 : fin (Proc.devRef .tc main_v31) = val_main_v31 (F := F) A0 A1 A2 A3 A4 A5 A6 A7 A8 := by
  have h := final_binary chain (launchContents m c) main_v30 main_v29 main_v31 _ (by decide) (by decide) (by decide) (op_mem 35 (by decide))
  rw [fin_v30, fin_v29] at h
  exact h

theorem fin_cst_2 : fin (Proc.devRef .tc main_cst_2) = val_main_cst_2 (F := F) := by
  have h := final_nullary chain (launchContents m c) main_cst_2 _ (by decide) (op_mem 36 (by decide))
  exact h

theorem fin_v32 : fin (Proc.devRef .tc main_v32) = val_main_v32 (F := F) := by
  have h := final_unary chain (launchContents m c) main_cst_2 main_v32 _ (by decide) (by decide) (op_mem 37 (by decide))
  rw [fin_cst_2] at h
  exact h

theorem fin_v33 : fin (Proc.devRef .tc main_v33) = val_main_v33 (F := F) A0 A1 A2 A3 A4 A5 A6 A7 A8 := by
  have h := final_binary chain (launchContents m c) main_v32 main_v31 main_v33 _ (by decide) (by decide) (by decide) (op_mem 38 (by decide))
  rw [fin_v32, fin_v31] at h
  exact h

theorem fin_v34 : fin (Proc.devRef .tc main_v34) = val_main_v34 (F := F) A0 A1 A2 A3 A4 A5 A6 A7 A8 := by
  have h := final_binary chain (launchContents m c) main_v33 main_v22 main_v34 _ (by decide) (by decide) (by decide) (op_mem 39 (by decide))
  rw [fin_v33, fin_v22] at h
  exact h

theorem fin_cst_3 : fin (Proc.devRef .tc main_cst_3) = val_main_cst_3 (F := F) := by
  have h := final_nullary chain (launchContents m c) main_cst_3 _ (by decide) (op_mem 40 (by decide))
  exact h

theorem fin_v35 : fin (Proc.devRef .tc main_v35) = val_main_v35 (F := F) := by
  have h := final_unary chain (launchContents m c) main_cst_3 main_v35 _ (by decide) (by decide) (op_mem 41 (by decide))
  rw [fin_cst_3] at h
  exact h

theorem fin_v36 : fin (Proc.devRef .tc main_v36) = val_main_v36 (F := F) A0 A1 A2 A3 A4 A5 A6 A7 A8 := by
  have h := final_binary chain (launchContents m c) main_v35 main_v33 main_v36 _ (by decide) (by decide) (by decide) (op_mem 42 (by decide))
  rw [fin_v35, fin_v33] at h
  exact h

theorem fin_v37 : fin (Proc.devRef .tc main_v37) = val_main_v37 (F := F) A0 A1 A2 A3 A4 A5 A6 A7 A8 := by
  have h := final_binary chain (launchContents m c) main_v36 main_arg0 main_v37 _ (by decide) (by decide) (by decide) (op_mem 43 (by decide))
  rw [fin_v36, fin_arg0] at h
  exact h

theorem fin_v38 : fin (Proc.devRef .tc main_v38) = val_main_v38 (F := F) A0 A1 A2 A3 A4 A5 A6 A7 A8 := by
  have h := final_binary chain (launchContents m c) main_v34 main_v37 main_v38 _ (by decide) (by decide) (by decide) (op_mem 44 (by decide))
  rw [fin_v34, fin_v37] at h
  exact h

theorem fin_v39 : fin (Proc.devRef .tc main_v39) = val_main_v39 (F := F) A0 A1 A2 A3 A4 A5 A6 A7 A8 A9 := by
  have h := final_binary chain (launchContents m c) main_v38 main_arg9 main_v39 _ (by decide) (by decide) (by decide) (op_mem 45 (by decide))
  rw [fin_v38, fin_arg9] at h
  exact h

theorem fin_v40 : fin (Proc.devRef .tc main_v40) = val_main_v40 (F := F) A10 := by
  have h := final_unary chain (launchContents m c) main_arg10 main_v40 _ (by decide) (by decide) (op_mem 46 (by decide))
  rw [fin_arg10] at h
  exact h

theorem fin_v41 : fin (Proc.devRef .tc main_v41) = val_main_v41 (F := F) A10 := by
  have h := final_unary chain (launchContents m c) main_v40 main_v41 _ (by decide) (by decide) (op_mem 47 (by decide))
  rw [fin_v40] at h
  exact h

theorem fin_v42 : fin (Proc.devRef .tc main_v42) = val_main_v42 (F := F) A0 A1 A2 A3 A4 A5 A6 A7 A8 A9 A10 := by
  have h := final_binary chain (launchContents m c) main_v39 main_v41 main_v42 _ (by decide) (by decide) (by decide) (op_mem 48 (by decide))
  rw [fin_v39, fin_v41] at h
  exact h

end Cert.RefFinal

end
-- ==== Proof.RefFinal.lean ====
/-
  The reference program's run.

  Every weakly fair execution of the reference's @main terminates, nothing faulting; the two result buffers end at the
  last two stage functions of the launch arguments, and the arguments end as launched. The run of a line of host
  operations leaves every buffer at the line's final contents; those are read buffer by buffer in RefStages.lean.
-/
import proofs.«155361_j71459665871600_1_alg».proof.Proof.RefStages

noncomputable section

namespace Cert.RefFinal

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v38)
        = val_main_v38 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v42)
        = val_main_v42 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v38).trans (fin_v38 m c), (h c main_v42).trans (fin_v42 m c),
      (h c main_arg0).trans (fin_arg0 m c),
      (h c main_arg1).trans (fin_arg1 m c),
      (h c main_arg2).trans (fin_arg2 m c),
      (h c main_arg3).trans (fin_arg3 m c),
      (h c main_arg4).trans (fin_arg4 m c),
      (h c main_arg5).trans (fin_arg5 m c),
      (h c main_arg6).trans (fin_arg6 m c),
      (h c main_arg7).trans (fin_arg7 m c),
      (h c main_arg8).trans (fin_arg8 m c),
      (h c main_arg9).trans (fin_arg9 m c),
      (h c main_arg10).trans (fin_arg10 m c)⟩)
    (run_seq scopedRefs_eq scopedSems_eq defs main (fun _ => ops) main_eq (fun _ => ops_sub) m ρ)

end Cert.RefFinal

end
-- ==== Proof.LibRows.lean ====
/-
  Rows of a matrix, general lemmas.

  A plain matrix product [M, K] × [K, N] read at an entry (r, q) is the inner product of row r of the left factor
  with column q of the right one, whatever record spells its dimension numbers, as long as the record contracts the
  left factor's second axis against the right factor's first and has no batch axis. Two matrices laid side by side
  along the columns, read at an entry (r, k), are the left one at (r, k) when k is below its width and the right one
  at (r, k − width) otherwise.
-/
import Idealize.ShloMosaic.PureOps.Ideal.Laws
import Idealize.ShloMosaic.Lib.ValueIdx
import Idealize.ShloMosaic.Lib.Pipeline.Value

noncomputable section

namespace Cert.LibRows

open Idealize.ShloMosaic Idealize.ShloMosaic.ValueIdx

/-- The inner product of two rows of extended reals. -/
def dotRow {K : Nat} (row w : Fin K → EReal) : EReal := ∑ k : Fin K, row k * w k

/-- Two rows side by side: the first below its width, the second after it. -/
def catRow {α : Type} {K₁ K₂ K : Nat} (hK : K = K₁ + K₂) (a : Fin K₁ → α) (b : Fin K₂ → α) (k : Fin K) : α :=
  if h : k.val < K₁ then a ⟨k.val, h⟩ else b ⟨k.val - K₁, by have := k.isLt; omega⟩

section PlainDot
variable {M K N : Nat} (D : DotDims ⟨2, ![M, K]⟩ ⟨2, ![K, N]⟩ ⟨2, ![M, N]⟩)

/-- The left factor's row coordinate is the entry's row. -/
theorem lhsIdx_row (hln : D.lhsNonContracting = [0]) (hlb : D.lhsBatch = [])
    (j : (⟨2, ![M, N]⟩ : Shape).Idx) (k : D.contr.Idx) : (D.lhsIdx j k 0).val = (j 0).val := by
  have hb : ¬ (0 : Fin (⟨2, ![M, K]⟩ : Shape).rank) ∈ D.lhsBatch := by rw [hlb]; exact List.not_mem_nil
  have hn : (0 : Fin (⟨2, ![M, K]⟩ : Shape).rank) ∈ D.lhsNonContracting := by rw [hln]; exact List.mem_singleton.mpr rfl
  unfold DotDims.lhsIdx
  rw [dif_neg hb, dif_pos hn]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq h => by subst h; rfl
  exact key _ _ _ _ (by simp [hlb, hln])

/-- The right factor's column coordinate is the entry's column. -/
theorem rhsIdx_col (hln : D.lhsNonContracting = [0]) (hlb : D.lhsBatch = []) (hrn : D.rhsNonContracting = [1]) (hrb : D.rhsBatch = [])
    (j : (⟨2, ![M, N]⟩ : Shape).Idx) (k : D.contr.Idx) : (D.rhsIdx j k 1).val = (j 1).val := by
  have hb : ¬ (1 : Fin (⟨2, ![K, N]⟩ : Shape).rank) ∈ D.rhsBatch := by rw [hrb]; exact List.not_mem_nil
  have hn : (1 : Fin (⟨2, ![K, N]⟩ : Shape).rank) ∈ D.rhsNonContracting := by rw [hrn]; exact List.mem_singleton.mpr rfl
  unfold DotDims.rhsIdx
  rw [dif_neg hb, dif_pos hn]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq h => by subst h; rfl
  exact key _ _ _ _ (by simp [hlb, hln, hrn])

/-- A plain product's sum over the contraction index, at the entry (r, q), is the inner product of the left factor's
    row r with the right factor's column q. -/
theorem plainDot_sum (hlc : D.lhsContracting = [1]) (hrc : D.rhsContracting = [0]) (hln : D.lhsNonContracting = [0])
    (hrn : D.rhsNonContracting = [1]) (hlb : D.lhsBatch = []) (hrb : D.rhsBatch = [])
    (A : (⟨2, ![M, K]⟩ : Shape).Idx → EReal) (B : (⟨2, ![K, N]⟩ : Shape).Idx → EReal) (r : Fin M) (q : Fin N) :
    ∑ k : D.contr.Idx, A (D.lhsIdx (ix2 r q) k) * B (D.rhsIdx (ix2 r q) k)
      = dotRow (fun k : Fin K => A (ix2 r k)) (fun k : Fin K => B (ix2 k q)) := by
  have hr : D.contr.rank = 1 := by rw [DotDims.rank_contr, hlc]; rfl
  have hs : D.contr.size ⟨0, by omega⟩ = K := by
    have key : ∀ (l : List (Fin (⟨2, ![M, K]⟩ : Shape).rank)) (_ : l = [1])
        (hp : 0 < (Shape.ofList (l.map (⟨2, ![M, K]⟩ : Shape).size)).rank),
        (Shape.ofList (l.map (⟨2, ![M, K]⟩ : Shape).size)).size ⟨0, hp⟩ = K := by
      intro l h hp; subst h; rfl
    exact key _ hlc _
  unfold dotRow
  rw [← Equiv.sum_comp (contrEquiv1 D K hr hs).symm]
  refine Finset.sum_congr rfl fun k _ => ?_
  have hk := contrEquiv1_symm_val D K hr hs k
  have el : D.lhsIdx (ix2 r q) ((contrEquiv1 D K hr hs).symm k) = ix2 r k := funext fun a => Fin.ext (by
    match a with
    | ⟨0, _⟩ => exact lhsIdx_row D hln hlb _ _
    | ⟨1, _⟩ => exact (D.lhsIdx_val_of_single hlc _ _).trans hk)
  have er : D.rhsIdx (ix2 r q) ((contrEquiv1 D K hr hs).symm k) = ix2 k q := funext fun a => Fin.ext (by
    match a with
    | ⟨0, _⟩ => exact (D.rhsIdx_val_of_single hrc _ _).trans hk
    | ⟨1, _⟩ => exact rhsIdx_col D hln hlb hrn hrb _ _)
  rw [el, er]

end PlainDot

section SideBySide
variable {α : Type} {n K₁ K₂ K : Nat}

/-- Two matrices of the same height laid side by side along the columns, read at the entry (r, k): the left one's
    entry when k is below its width, else the right one's at the column the left width less. -/
theorem concat_cols_apply (hK : K = K₁ + K₂)
    (x₁ : (⟨2, ![n, K₁]⟩ : Shape).Idx → α) (x₂ : (⟨2, ![n, K₂]⟩ : Shape).Idx → α)
    (h : Shape.Concatenates [⟨2, ![n, K₁]⟩, ⟨2, ![n, K₂]⟩] ⟨2, ![n, K]⟩ 1)
    (r : Fin n) (k : Fin K) :
    concatenate ⟨2, ![n, K]⟩ 1 [⟨⟨2, ![n, K₁]⟩, x₁⟩, ⟨⟨2, ![n, K₂]⟩, x₂⟩] h (ix2 r k)
      = catRow hK (fun k' : Fin K₁ => x₁ (ix2 r k')) (fun k' : Fin K₂ => x₂ (ix2 r k')) k := by
  unfold catRow
  by_cases hk : k.val < K₁
  · rw [dif_pos hk]
    exact concatenate_pair_apply_left 1 x₁ x₂ h (ix2 r k) rfl (ix2 r ⟨k.val, hk⟩)
      (fun b => match b with | ⟨0, _⟩ => rfl | ⟨1, _⟩ => rfl)
  · rw [dif_neg hk]
    have hlt : k.val - K₁ < K₂ := by have := k.isLt; omega
    exact concatenate_pair_apply_right 1 x₁ x₂ h (ix2 r k) rfl rfl (ix2 r ⟨k.val - K₁, hlt⟩)
      (fun b hb => match b, hb with
        | ⟨0, _⟩, _ => rfl
        | ⟨1, _⟩, hb => absurd rfl hb)
      (by show k.val - K₁ + K₁ = k.val; omega)

end SideBySide

end Cert.LibRows

end
-- ==== Proof.Rows.lean ====
/-
  The layer, one node at a time.

  Every result of the layer at node r depends on row r of the node features x, row r of the aggregated messages and
  entry r of the importance column, and on the weights; nothing mixes two nodes. So the whole computation is written
  here once as functions of ROWS of extended reals, and both programs are compared with it row by row:

    message      msg(q)  = ⟨x_r, W_msg[:, q]⟩ + b_msg(q)
    update       conv(q) = ⟨x_r ‖ aggr_r, W_upd[:, q]⟩ + b_upd(q)
    gate         g(q)    = logistic(⟨conv ‖ imp_r, W_gate[:, q]⟩ + b_gate(q))
    mix          out(q)  = g(q) · conv(q) + (1 − g(q)) · x_r(q)
    importance   head    = ⟨out, W_imp[:, 0]⟩ + b_imp(0)

  where ‖ lays two rows side by side. The constant 1 of the mix is kept as the f32 word both programs print.
-/
import proofs.«155361_j71459665871600_1_alg».proof.Proof.LibRows

noncomputable section

namespace Cert.Rows

open Idealize.ShloMosaic Idealize.ShloMosaic.ValueIdx Cert.LibRows

/-- A matrix of extended reals. -/
abbrev Mat (a b : Nat) : Type := (⟨2, ![a, b]⟩ : Shape).Idx → EReal
/-- A vector of extended reals. -/
abbrev Vec1 (a : Nat) : Type := (⟨1, ![a]⟩ : Shape).Idx → EReal

/-- The f32 word of 1.0, as both programs print it in the mix. -/
abbrev oneWord : EReal := Ideal.ofBits .f32 0x3F800000#32

/-- The message of one node: its feature row through the message weights, plus the bias. -/
def msgRow (xr : Fin 128 → EReal) (W : Mat 128 128) (b : Vec1 128) (q : Fin 128) : EReal :=
  dotRow xr (fun k => W (ix2 k q)) + b (ix1 q)

/-- The update of one node: features and aggregated messages side by side through the update weights, plus the bias. -/
def convRow (xr ar : Fin 128 → EReal) (Wu : Mat 256 128) (bu : Vec1 128) (q : Fin 128) : EReal :=
  dotRow (catRow (K := 256) rfl xr ar) (fun k => Wu (ix2 k q)) + bu (ix1 q)

/-- The gate of one node: the update and the node's importance side by side through the gate weights, plus the bias,
    through the logistic function. -/
def gateRow (cr : Fin 128 → EReal) (ir : Fin 1 → EReal) (Wg : Mat 129 128) (bg : Vec1 128) (q : Fin 128) : EReal :=
  Ideal.logistic (dotRow (catRow (K := 129) rfl cr ir) (fun k => Wg (ix2 k q)) + bg (ix1 q))

/-- The gated mix of the update with the node's own features. -/
def mixRow (xr ar : Fin 128 → EReal) (ir : Fin 1 → EReal) (Wu : Mat 256 128) (bu : Vec1 128) (Wg : Mat 129 128) (bg : Vec1 128)
    (q : Fin 128) : EReal :=
  gateRow (convRow xr ar Wu bu) ir Wg bg q * convRow xr ar Wu bu q
    + (oneWord - gateRow (convRow xr ar Wu bu) ir Wg bg q) * xr q

/-- The propagated importance of one node: the mix through the importance weights, plus the bias. -/
def headRow (xr ar : Fin 128 → EReal) (ir : Fin 1 → EReal) (Wu : Mat 256 128) (bu : Vec1 128) (Wg : Mat 129 128) (bg : Vec1 128)
    (Wi : Mat 128 1) (bi : Vec1 1) : EReal :=
  dotRow (mixRow xr ar ir Wu bu Wg bg) (fun k => Wi (ix2 k (0 : Fin 1))) + bi (ix1 (0 : Fin 1))

/-! ## The same, for all nodes at once -/

/-- Row r of a matrix with 128 columns. -/
abbrev row128 {n : Nat} (x : Mat n 128) (r : Fin n) : Fin 128 → EReal := fun k => x (ix2 r k)
/-- Row r of a one-column matrix. -/
abbrev row1 {n : Nat} (x : Mat n 1) (r : Fin n) : Fin 1 → EReal := fun k => x (ix2 r k)

/-- Every node's message. -/
def msgArr (x : Mat 50000 128) (W : Mat 128 128) (b : Vec1 128) : Mat 50000 128 :=
  fun i => msgRow (row128 x (i 0)) W b (i 1)

/-- Every node's gated mix: the layer's first result. -/
def mixArr (x ag : Mat 50000 128) (imp : Mat 50000 1) (Wu : Mat 256 128) (bu : Vec1 128) (Wg : Mat 129 128) (bg : Vec1 128) :
    Mat 50000 128 :=
  fun i => mixRow (row128 x (i 0)) (row128 ag (i 0)) (row1 imp (i 0)) Wu bu Wg bg (i 1)

/-- Every node's propagated importance: the layer's second result. -/
def headArr (x ag : Mat 50000 128) (imp : Mat 50000 1) (Wu : Mat 256 128) (bu : Vec1 128) (Wg : Mat 129 128) (bg : Vec1 128)
    (Wi : Mat 128 1) (bi : Vec1 1) : Mat 50000 1 :=
  fun i => headRow (row128 x (i 0)) (row128 ag (i 0)) (row1 imp (i 0)) Wu bu Wg bg Wi bi

end Cert.Rows

end
-- ==== Proof.RefRows.lean ====
/-
  The reference program read row by row: each of its two results at an index (r, q) is the layer's row function
  (Rows.lean) of row r of the node features, of the aggregated messages and of the importance column, and of the
  weights. The aggregation itself (gather the messages at the edges' sources, add them up at the edges'
  destinations) is never opened: it is one function of the messages and of the edge list.
-/
import proofs.«155361_j71459665871600_1_alg».proof.Proof.RefRun
import proofs.«155361_j71459665871600_1_alg».proof.Proof.RefRead
import proofs.«155361_j71459665871600_1_alg».proof.Proof.Rows
import Idealize.ShloMosaic.Lib.IdealHost

noncomputable section

namespace Cert.RefRows

open Idealize.ShloMosaic Idealize.ShloMosaic.ValueIdx Cert.LibRows Cert.Rows
open Cert.ReferenceIdeal Cert.ReferenceIdeal.Gen Cert.ReferenceIdeal.ReadP

/-- The aggregated messages as a function of the messages and the edge list: the messages gathered at the edges'
    sources (a negative source counted from the end) and added up at the edges' destinations. -/
def aggOf (msg : Mat 50000 128) (x1 : (⟨S2x800000, .i32⟩ : BufTy).Contents (Elt Ideal)) : Mat 50000 128 :=
  Host.scatterAdd (F := Ideal) (φ := .f32) scatter_S50000x128_S800000x1_S800000x128_1_0_0_1 (val_main_v15 (F := Ideal)) (val_main_v16 (F := Ideal) x1)
    (Host.gather gather_S50000x128_S800000x1_S800000x128_1_0_n_n_0_1_1128 msg (val_main_v13 (F := Ideal) x1))

/-- The reference's aggregation stage is that function of its message stage. -/
theorem agg_eq (x0 : Mat 50000 128) (x1 : (⟨S2x800000, .i32⟩ : BufTy).Contents (Elt Ideal)) (x3 : Mat 128 128) (x4 : Vec1 128) :
    val_main_v17 (F := Ideal) x0 x1 x3 x4 = aggOf (val_main_v7 (F := Ideal) x0 x3 x4) x1 := rfl

/-! ## The generated index functions at explicit coordinates

Each product stage reads its left factor along row r and its right factor along column q; each bias is read at the
entry's column. -/

theorem lidx_msg (r : Fin 50000) (q k : Fin 128) : lidx_main_v4 (ix2 r q) k = ix2 r k :=
  funext fun a => Fin.ext (by match a with | ⟨0, _⟩ => rfl | ⟨1, _⟩ => rfl)
theorem ridx_msg (r : Fin 50000) (q k : Fin 128) : ridx_main_v4 (ix2 r q) k = ix2 k q :=
  funext fun a => Fin.ext (by match a with | ⟨0, _⟩ => rfl | ⟨1, _⟩ => rfl)
theorem bias_idx_msg (r : Fin 50000) (q : Fin 128) : idx_main_v5 (idx_main_v6 (ix2 r q)) = ix1 q :=
  funext fun a => Fin.ext (by match a with | ⟨0, _⟩ => rfl)

theorem lidx_upd (r : Fin 50000) (q : Fin 128) (k : Fin 256) : lidx_main_v19 (ix2 r q) k = ix2 r k :=
  funext fun a => Fin.ext (by match a with | ⟨0, _⟩ => rfl | ⟨1, _⟩ => rfl)
theorem ridx_upd (r : Fin 50000) (q : Fin 128) (k : Fin 256) : ridx_main_v19 (ix2 r q) k = ix2 k q :=
  funext fun a => Fin.ext (by match a with | ⟨0, _⟩ => rfl | ⟨1, _⟩ => rfl)
theorem bias_idx_upd (r : Fin 50000) (q : Fin 128) : idx_main_v20 (idx_main_v21 (ix2 r q)) = ix1 q :=
  funext fun a => Fin.ext (by match a with | ⟨0, _⟩ => rfl)

theorem lidx_gate (r : Fin 50000) (q : Fin 128) (k : Fin 129) : lidx_main_v24 (ix2 r q) k = ix2 r k :=
  funext fun a => Fin.ext (by match a with | ⟨0, _⟩ => rfl | ⟨1, _⟩ => rfl)
theorem ridx_gate (r : Fin 50000) (q : Fin 128) (k : Fin 129) : ridx_main_v24 (ix2 r q) k = ix2 k q :=
  funext fun a => Fin.ext (by match a with | ⟨0, _⟩ => rfl | ⟨1, _⟩ => rfl)
theorem bias_idx_gate (r : Fin 50000) (q : Fin 128) : idx_main_v25 (idx_main_v26 (ix2 r q)) = ix1 q :=
  funext fun a => Fin.ext (by match a with | ⟨0, _⟩ => rfl)

theorem lidx_head (r : Fin 50000) (c : Fin 1) (k : Fin 128) : lidx_main_v39 (ix2 r c) k = ix2 r k :=
  funext fun a => Fin.ext (by match a with | ⟨0, _⟩ => rfl | ⟨1, _⟩ => rfl)
theorem ridx_head (r : Fin 50000) (c : Fin 1) (k : Fin 128) : ridx_main_v39 (ix2 r c) k = ix2 k c :=
  funext fun a => Fin.ext (by match a with | ⟨0, _⟩ => rfl | ⟨1, _⟩ => rfl)
theorem bias_idx_head (r : Fin 50000) (c : Fin 1) : idx_main_v40 (idx_main_v41 (ix2 r c)) = ix1 (0 : Fin 1) :=
  funext fun a => Fin.ext (by match a with | ⟨0, _⟩ => rfl)

/-! ## The stages at an entry (r, q) -/

/-- The edge list's type. -/
abbrev EdgeList : Type := (⟨S2x800000, .i32⟩ : BufTy).Contents (Elt Ideal)

/-- The message stage at (r, q) is node r's message at q. -/
theorem msg_at (x0 : Mat 50000 128) (x3 : Mat 128 128) (x4 : Vec1 128) (r : Fin 50000) (q : Fin 128) :
    val_main_v7 (F := Ideal) x0 x3 x4 (ix2 r q) = msgRow (row128 x0 r) x3 x4 q := by
  rw [val_main_v7_apply, val_main_v4_apply, val_main_v6_apply, val_main_v5_apply, bias_idx_msg]
  exact congrArg (· + x4 (ix1 q)) (Finset.sum_congr rfl fun k _ => by rw [lidx_msg, ridx_msg])

/-- Features and aggregated messages side by side, at (r, k). -/
theorem cat_upd_at (x0 ag : Mat 50000 128) (r : Fin 50000) (k : Fin 256) :
    concatenate S50000x256 1 [⟨S50000x128, x0⟩, ⟨S50000x128, ag⟩] concatenates_S50000x128_S50000x128_S50000x256_d1 (ix2 r k)
      = catRow (K := 256) rfl (row128 x0 r) (row128 ag r) k :=
  concat_cols_apply rfl x0 ag concatenates_S50000x128_S50000x128_S50000x256_d1 r k

/-- The update's product at (r, q), over any aggregated messages. -/
theorem upd_sum (x0 ag : Mat 50000 128) (x5 : Mat 256 128) (r : Fin 50000) (q : Fin 128) :
    ∑ k : Fin 256, concatenate S50000x256 1 [⟨S50000x128, x0⟩, ⟨S50000x128, ag⟩]
        concatenates_S50000x128_S50000x128_S50000x256_d1 (lidx_main_v19 (ix2 r q) k) * x5 (ridx_main_v19 (ix2 r q) k)
      = dotRow (catRow (K := 256) rfl (row128 x0 r) (row128 ag r)) (fun k => x5 (ix2 k q)) :=
  Finset.sum_congr rfl fun k _ => by rw [lidx_upd, ridx_upd, cat_upd_at]

/-- The update stage at (r, q) is node r's update at q, over the reference's own aggregation stage. -/
theorem conv_at (x0 : Mat 50000 128) (x1 : EdgeList) (x3 : Mat 128 128) (x4 : Vec1 128) (x5 : Mat 256 128) (x6 : Vec1 128)
    (r : Fin 50000) (q : Fin 128) :
    val_main_v22 (F := Ideal) x0 x1 x3 x4 x5 x6 (ix2 r q)
      = convRow (row128 x0 r) (row128 (val_main_v17 (F := Ideal) x0 x1 x3 x4) r) x5 x6 q := by
  rw [val_main_v22_apply, val_main_v19_apply, val_main_v21_apply, val_main_v20_apply, bias_idx_upd]
  exact congrArg (· + x6 (ix1 q)) (upd_sum x0 (val_main_v17 (F := Ideal) x0 x1 x3 x4) x5 r q)

/-- The update and the importance column side by side, at (r, k). -/
theorem cat_gate_at (cv : Mat 50000 128) (x2 : Mat 50000 1) (r : Fin 50000) (k : Fin 129) :
    concatenate S50000x129 1 [⟨S50000x128, cv⟩, ⟨S50000x1, x2⟩] concatenates_S50000x128_S50000x1_S50000x129_d1 (ix2 r k)
      = catRow (K := 129) rfl (row128 cv r) (row1 x2 r) k :=
  concat_cols_apply rfl cv x2 concatenates_S50000x128_S50000x1_S50000x129_d1 r k

/-- The gate's product at (r, q), over any update. -/
theorem gate_sum (cv : Mat 50000 128) (x2 : Mat 50000 1) (x7 : Mat 129 128) (r : Fin 50000) (q : Fin 128) :
    ∑ k : Fin 129, concatenate S50000x129 1 [⟨S50000x128, cv⟩, ⟨S50000x1, x2⟩]
        concatenates_S50000x128_S50000x1_S50000x129_d1 (lidx_main_v24 (ix2 r q) k) * x7 (ridx_main_v24 (ix2 r q) k)
      = dotRow (catRow (K := 129) rfl (row128 cv r) (row1 x2 r)) (fun k => x7 (ix2 k q)) :=
  Finset.sum_congr rfl fun k _ => by rw [lidx_gate, ridx_gate, cat_gate_at]

/-- The gate's logit at (r, q). -/
theorem logit_at (x0 : Mat 50000 128) (x1 : EdgeList) (x2 : Mat 50000 1) (x3 : Mat 128 128) (x4 : Vec1 128) (x5 : Mat 256 128)
    (x6 : Vec1 128) (x7 : Mat 129 128) (x8 : Vec1 128) (r : Fin 50000) (q : Fin 128) :
    val_main_v27 (F := Ideal) x0 x1 x2 x3 x4 x5 x6 x7 x8 (ix2 r q)
      = dotRow (catRow (K := 129) rfl
            (convRow (row128 x0 r) (row128 (val_main_v17 (F := Ideal) x0 x1 x3 x4) r) x5 x6) (row1 x2 r))
          (fun k => x7 (ix2 k q)) + x8 (ix1 q) := by
  rw [val_main_v27_apply, val_main_v24_apply, val_main_v26_apply, val_main_v25_apply, bias_idx_gate]
  have hrow : row128 (val_main_v22 (F := Ideal) x0 x1 x3 x4 x5 x6) r
      = convRow (row128 x0 r) (row128 (val_main_v17 (F := Ideal) x0 x1 x3 x4) r) x5 x6 :=
    funext fun k => conv_at x0 x1 x3 x4 x5 x6 r k
  rw [← hrow]
  exact congrArg (· + x8 (ix1 q)) (gate_sum (val_main_v22 (F := Ideal) x0 x1 x3 x4 x5 x6) x2 x7 r q)

/-- The gate stage at (r, q) is node r's gate at q: the quotient the reference prints is the logistic function. -/
theorem gate_at (x0 : Mat 50000 128) (x1 : EdgeList) (x2 : Mat 50000 1) (x3 : Mat 128 128) (x4 : Vec1 128) (x5 : Mat 256 128)
    (x6 : Vec1 128) (x7 : Mat 129 128) (x8 : Vec1 128) (r : Fin 50000) (q : Fin 128) :
    val_main_v33 (F := Ideal) x0 x1 x2 x3 x4 x5 x6 x7 x8 (ix2 r q)
      = gateRow (convRow (row128 x0 r) (row128 (val_main_v17 (F := Ideal) x0 x1 x3 x4) r) x5 x6) (row1 x2 r) x7 x8 q := by
  rw [val_main_v33_apply, val_main_v32_apply, val_main_cst_2_apply, val_main_v31_apply, val_main_v30_apply,
    val_main_cst_1_apply, val_main_v29_apply, val_main_v28_apply, logit_at]
  simp only [Ideal.ofBits_def, Ideal.ofBits_one_f32, Ideal.hostDivf_def, Ideal.addf_def, Ideal.hostUnary_exp_def,
    Ideal.hostNegf_def, Ideal.negf_def]
  rfl

/-- The first result at (r, q) is node r's gated mix at q. -/
theorem mix_at (x0 : Mat 50000 128) (x1 : EdgeList) (x2 : Mat 50000 1) (x3 : Mat 128 128) (x4 : Vec1 128) (x5 : Mat 256 128)
    (x6 : Vec1 128) (x7 : Mat 129 128) (x8 : Vec1 128) (r : Fin 50000) (q : Fin 128) :
    val_main_v38 (F := Ideal) x0 x1 x2 x3 x4 x5 x6 x7 x8 (ix2 r q)
      = mixRow (row128 x0 r) (row128 (val_main_v17 (F := Ideal) x0 x1 x3 x4) r) (row1 x2 r) x5 x6 x7 x8 q := by
  rw [val_main_v38_apply, val_main_v34_apply, val_main_v37_apply, val_main_v36_apply, val_main_v35_apply,
    val_main_cst_3_apply, gate_at, conv_at]
  rfl

/-- The second result at (r, 0) is node r's propagated importance. -/
theorem head_at (x0 : Mat 50000 128) (x1 : EdgeList) (x2 : Mat 50000 1) (x3 : Mat 128 128) (x4 : Vec1 128) (x5 : Mat 256 128)
    (x6 : Vec1 128) (x7 : Mat 129 128) (x8 : Vec1 128) (x9 : Mat 128 1) (x10 : Vec1 1) (r : Fin 50000) (c : Fin 1) :
    val_main_v42 (F := Ideal) x0 x1 x2 x3 x4 x5 x6 x7 x8 x9 x10 (ix2 r c)
      = headRow (row128 x0 r) (row128 (val_main_v17 (F := Ideal) x0 x1 x3 x4) r) (row1 x2 r) x5 x6 x7 x8 x9 x10 := by
  obtain rfl : c = 0 := Subsingleton.elim _ _
  rw [val_main_v42_apply, val_main_v39_apply, val_main_v41_apply, val_main_v40_apply, bias_idx_head]
  refine congrArg (· + x10 (ix1 (0 : Fin 1))) (Finset.sum_congr rfl fun k _ => ?_)
  rw [lidx_head, ridx_head, mix_at]

/-- The reference's message stage is every node's message. -/
theorem msg_eq (x0 : Mat 50000 128) (x3 : Mat 128 128) (x4 : Vec1 128) :
    val_main_v7 (F := Ideal) x0 x3 x4 = msgArr x0 x3 x4 := by
  funext i
  obtain ⟨r, q, rfl⟩ : ∃ (r : Fin 50000) (q : Fin 128), i = ix2 r q := ⟨i 0, i 1, eq_ix2 i⟩
  exact msg_at x0 x3 x4 r q

/-- The reference's first result is every node's gated mix, over its own aggregation stage. -/
theorem mix_eq (x0 : Mat 50000 128) (x1 : (⟨S2x800000, .i32⟩ : BufTy).Contents (Elt Ideal)) (x2 : Mat 50000 1) (x3 : Mat 128 128)
    (x4 : Vec1 128) (x5 : Mat 256 128) (x6 : Vec1 128) (x7 : Mat 129 128) (x8 : Vec1 128) :
    val_main_v38 (F := Ideal) x0 x1 x2 x3 x4 x5 x6 x7 x8
      = mixArr x0 (val_main_v17 (F := Ideal) x0 x1 x3 x4) x2 x5 x6 x7 x8 := by
  funext i
  obtain ⟨r, q, rfl⟩ : ∃ (r : Fin 50000) (q : Fin 128), i = ix2 r q := ⟨i 0, i 1, eq_ix2 i⟩
  exact mix_at x0 x1 x2 x3 x4 x5 x6 x7 x8 r q

/-- The reference's second result is every node's propagated importance. -/
theorem head_eq (x0 : Mat 50000 128) (x1 : (⟨S2x800000, .i32⟩ : BufTy).Contents (Elt Ideal)) (x2 : Mat 50000 1) (x3 : Mat 128 128)
    (x4 : Vec1 128) (x5 : Mat 256 128) (x6 : Vec1 128) (x7 : Mat 129 128) (x8 : Vec1 128) (x9 : Mat 128 1) (x10 : Vec1 1) :
    val_main_v42 (F := Ideal) x0 x1 x2 x3 x4 x5 x6 x7 x8 x9 x10
      = headArr x0 (val_main_v17 (F := Ideal) x0 x1 x3 x4) x2 x5 x6 x7 x8 x9 x10 := by
  funext i
  obtain ⟨r, c, rfl⟩ : ∃ (r : Fin 50000) (c : Fin 1), i = ix2 r c := ⟨i 0, i 1, eq_ix2 i⟩
  exact head_at x0 x1 x2 x3 x4 x5 x6 x7 x8 x9 x10 r c

end Cert.RefRows

end
-- ==== Proof.KernelRows.lean ====
/-
  The two kernel bodies, one row at a time.

  What a body stores into its output block is a pure function of the blocks it loads. Read at the entry (p, q) of a
  block of 2000 nodes it is the layer's row function (Rows.lean) of row p of each loaded block: the matrix products
  are inner products of row p with a column of the weights (the change of float format before them is the identity
  on extended reals, and the accumulator they add into is zero), the concatenations lay rows side by side, and each
  bias is one row repeated over the block.
-/
import proofs.«155361_j71459665871600_1_alg».proof.Proof.Gen.KernelIdeal.Skeleton
import proofs.«155361_j71459665871600_1_alg».proof.Proof.Rows
import Idealize.ShloMosaic.Lib.ValueLayout

noncomputable section

namespace Cert.KernelRows

open Idealize.ShloMosaic Idealize.ShloMosaic.ValueIdx Cert.LibRows Cert.Rows Cert.KernelIdeal Cert.KernelIdeal.Gen

/-- A bias of 128 entries, reshaped to one row and repeated over the 2000 rows of a block, reads its entry q in
    every row. -/
theorem bias128_apply (b : Vec Ideal S128 .f32) (p : Fin 2000) (q : Fin 128) :
    broadcastTo S2000x128 (shapeCast S1x128 b shapeCasts_S128_S1x128) broadcasts_S1x128_S2000x128 (ix2 p q) = b (ix1 q) :=
  (broadcastTo_1b_ab_apply _ broadcasts_S1x128_S2000x128 p q).trans (shapeCast_a_1a_apply b shapeCasts_S128_S1x128 0 q)

/-- The one-entry bias of the importance head, repeated down the block's single column. -/
theorem bias1_apply (b : Vec Ideal S1 .f32) (p : Fin 2000) (z : Fin 1) :
    broadcastTo S2000x1 (shapeCast S1x1 b shapeCasts_S1_S1x1) broadcasts_S1x1_S2000x1 (ix2 p z) = b (ix1 z) :=
  (broadcastTo_1b_ab_apply _ broadcasts_S1x1_S2000x1 p z).trans (shapeCast_a_1a_apply b shapeCasts_S1_S1x1 0 z)

/-- The message body: entry (p, q) of what it stores is the message of the block's node p. -/
theorem pay_msg (x : Vec Ideal S2000x128 .f32) (W : Vec Ideal S128x128 .f32) (b : Vec Ideal S128 .f32)
    (p : Fin 2000) (q : Fin 128) :
    k0_pay1 (F := Ideal) x W b (ix2 p q) = msgRow (fun k => x (ix2 p k)) W b q := by
  unfold k0_pay1 msgRow
  refine congrArg₂ (· + ·) ?_ (bias128_apply b p q)
  exact (Ideal.matmul_constant_zero_apply dot_S2000x128_S128x128_S2000x128_1_0_0_1_n_n none _ _ (ix2 p q)).trans
    (plainDot_sum dot_S2000x128_S128x128_S2000x128_1_0_0_1_n_n rfl rfl rfl rfl rfl rfl _ _ p q)

/-- The update of the block's node p, as the second body computes it on the way to the gate. -/
theorem pay_conv (x a : Vec Ideal S2000x128 .f32) (Wu : Vec Ideal S256x128 .f32) (bu : Vec Ideal S128 .f32)
    (p : Fin 2000) (q : Fin 128) :
    addf (F := Ideal) (matmul (F := Ideal) dot_S2000x256_S256x128_S2000x128_1_0_0_1_n_n none
        (truncf .bf16 (concatenate S2000x256 1 [⟨S2000x128, x⟩, ⟨S2000x128, shapeCast S2000x128 a shapeCasts_S2000x128_S2000x128⟩]
          concatenates_S2000x128_S2000x128_S2000x256_d1) bitsLt_bf16_f32)
        (truncf .bf16 Wu bitsLt_bf16_f32) (constant (F := Ideal) S2000x128 .f32 0x00000000#32))
      (broadcastTo S2000x128 (shapeCast S1x128 bu shapeCasts_S128_S1x128) broadcasts_S1x128_S2000x128) (ix2 p q)
      = convRow (fun k => x (ix2 p k)) (fun k => a (ix2 p k)) Wu bu q := by
  unfold convRow
  refine congrArg₂ (· + ·) ?_ (bias128_apply bu p q)
  refine (Ideal.matmul_constant_zero_apply dot_S2000x256_S256x128_S2000x128_1_0_0_1_n_n none _ _ (ix2 p q)).trans ?_
  refine (plainDot_sum dot_S2000x256_S256x128_S2000x128_1_0_0_1_n_n rfl rfl rfl rfl rfl rfl _ _ p q).trans ?_
  refine congrArg₂ dotRow (funext fun k => ?_) rfl
  rw [shapeCast_self]
  exact concat_cols_apply (K := 256) rfl x a concatenates_S2000x128_S2000x128_S2000x256_d1 p k

/-- The gate of the block's node p, over whatever update block `cv` the body has computed. -/
theorem pay_gate (cv : Vec Ideal S2000x128 .f32) (imp : Vec Ideal S2000x1 .f32) (Wg : Vec Ideal S129x128 .f32)
    (bg : Vec Ideal S128 .f32) (p : Fin 2000) (q : Fin 128) :
    logistic (F := Ideal) (addf (F := Ideal) (matmul (F := Ideal) dot_S2000x129_S129x128_S2000x128_1_0_0_1_n_n none
        (truncf .bf16 (concatenate S2000x129 1 [⟨S2000x128, cv⟩, ⟨S2000x1, imp⟩] concatenates_S2000x128_S2000x1_S2000x129_d1)
          bitsLt_bf16_f32)
        (truncf .bf16 Wg bitsLt_bf16_f32) (constant (F := Ideal) S2000x128 .f32 0x00000000#32))
      (broadcastTo S2000x128 (shapeCast S1x128 bg shapeCasts_S128_S1x128) broadcasts_S1x128_S2000x128)) (ix2 p q)
      = gateRow (fun k => cv (ix2 p k)) (fun k => imp (ix2 p k)) Wg bg q := by
  unfold gateRow
  refine congrArg Ideal.logistic ?_
  refine congrArg₂ (· + ·) ?_ (bias128_apply bg p q)
  refine (Ideal.matmul_constant_zero_apply dot_S2000x129_S129x128_S2000x128_1_0_0_1_n_n none _ _ (ix2 p q)).trans ?_
  refine (plainDot_sum dot_S2000x129_S129x128_S2000x128_1_0_0_1_n_n rfl rfl rfl rfl rfl rfl _ _ p q).trans ?_
  refine congrArg₂ dotRow (funext fun k => ?_) rfl
  exact concat_cols_apply (K := 129) rfl cv imp concatenates_S2000x128_S2000x1_S2000x129_d1 p k

/-- The update-and-gate body's first store: entry (p, q) is the gated mix of the block's node p. -/
theorem pay_mix (x a : Vec Ideal S2000x128 .f32) (imp : Vec Ideal S2000x1 .f32) (Wu : Vec Ideal S256x128 .f32)
    (bu : Vec Ideal S128 .f32) (Wg : Vec Ideal S129x128 .f32) (bg : Vec Ideal S128 .f32) (p : Fin 2000) (q : Fin 128) :
    k1_pay1 (F := Ideal) x a imp Wu bu Wg bg (ix2 p q)
      = mixRow (fun k => x (ix2 p k)) (fun k => a (ix2 p k)) (fun k => imp (ix2 p k)) Wu bu Wg bg q := by
  unfold k1_pay1 mixRow
  have hgate := (pay_gate _ imp Wg bg p q).trans
    (congrArg (fun cr => gateRow cr (fun k => imp (ix2 p k)) Wg bg q) (funext fun k => pay_conv x a Wu bu p k))
  refine congrArg₂ (· + ·) ?_ ?_
  · exact congrArg₂ (· * ·) hgate (pay_conv x a Wu bu p q)
  · refine congrArg₂ (· * ·) ?_ rfl
    exact congrArg₂ (· - ·) rfl hgate

/-- The update-and-gate body's second store: entry (p, 0) is the propagated importance of the block's node p. -/
theorem pay_head (x a : Vec Ideal S2000x128 .f32) (imp : Vec Ideal S2000x1 .f32) (Wu : Vec Ideal S256x128 .f32)
    (bu : Vec Ideal S128 .f32) (Wg : Vec Ideal S129x128 .f32) (bg : Vec Ideal S128 .f32) (Wi : Vec Ideal S128x1 .f32)
    (bi : Vec Ideal S1 .f32) (p : Fin 2000) (z : Fin 1) :
    k1_pay2 (F := Ideal) x a imp Wu bu Wg bg Wi bi (ix2 p z)
      = headRow (fun k => x (ix2 p k)) (fun k => a (ix2 p k)) (fun k => imp (ix2 p k)) Wu bu Wg bg Wi bi := by
  obtain rfl : z = 0 := Subsingleton.elim _ _
  unfold k1_pay2 headRow
  refine congrArg₂ (· + ·) ?_ (bias1_apply bi p 0)
  refine (Ideal.matmul_constant_zero_apply dot_S2000x128_S128x1_S2000x1_1_0_0_1_n_n none _ _ (ix2 p 0)).trans ?_
  refine (plainDot_sum dot_S2000x128_S128x1_S2000x1_1_0_0_1_n_n rfl rfl rfl rfl rfl rfl _ _ p 0).trans ?_
  exact congrArg₂ dotRow (funext fun k => pay_mix x a imp Wu bu Wg bg p k) rfl

end Cert.KernelRows

end
-- ==== Proof.Blocks0.lean ====
/-
  The message kernel's output array after its run.

  The grid has 25 points; point t loads rows 2000·t … 2000·t + 1999 of the node features and the whole weights, and
  writes back the same rows of the output. What it writes back is the messages of those nodes, so the 25 blocks
  together leave the array holding every node's message.
-/
import proofs.«155361_j71459665871600_1_alg».proof.Proof.Gen.KernelIdeal.Frame
import proofs.«155361_j71459665871600_1_alg».proof.Proof.KernelRows

set_option maxRecDepth 16384

noncomputable section

namespace Cert.KernelBlocks

open Idealize.ShloMosaic Idealize.ShloMosaic.TcCoe Idealize.ShloMosaic.ValueIdx Idealize.SL.Sem
open Idealize.ShloMosaic.Pipeline (Dat Cfg Window)
open Cert.LibRows Cert.Rows Cert.KernelRows Cert.KernelIdeal Cert.KernelIdeal.Gen

-- the TensorCore's buffer contents when the region is entered
variable (V : (c : Dev nD) → (b : Ref sig .tc) → Buf (Elt Ideal) ((c : Thread nD τ).loc b))

/-- The zero offsets of a whole rank-2 block, as a constant function. -/
theorem zero_offsets_rank2 : (![0, 0] : Fin 2 → Nat) = fun _ => 0 := funext fun a => by fin_cases a <;> rfl
/-- The zero offset of a whole rank-1 block, as a constant function. -/
theorem zero_offsets_rank1 : (![0] : Fin 1 → Nat) = fun _ => 0 := funext fun a => by fin_cases a <;> rfl

/-- The block indices at the 25 grid points: the feature window and the output window are at row block t and column
    block 0; the weight and bias windows stay at block 0 on every axis. -/
theorem block_indices0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- The grid has 25 points. -/
theorem grid0_points : cfg0.N = 25 := by decide +kernel

/-- Entry (p, k) of the feature block at point t is entry (2000·t + p, k) of the node features. -/
theorem features_block0 (c : Dev nD) (t : Fin cfg0.N) (p : Fin 2000) (k : Fin 128) (r : Fin 50000)
    (hr : r.val = 2000 * t.val + p.val) :
    (iblk0 V c 0 t : Vec Ideal S2000x128 .f32) (ix2 p k) = (V c main_arg0 : S50000x128.Idx → EReal) (ix2 r k) := by
  obtain ⟨e0, e1, -⟩ := block_indices0 t
  unfold iblk0
  rw [View.read_apply]
  show V c main_arg0 _ = V c main_arg0 _
  congr 1
  funext a
  apply Fin.ext
  match a with
  | ⟨0, _⟩ => show win0_0.index t (0 : Fin 2) * 2000 + 1 * p.val = r.val; omega
  | ⟨1, _⟩ => show win0_0.index t (1 : Fin 2) * 128 + 1 * k.val = k.val; omega

/-- The weight block at every point is the whole message weight matrix. -/
theorem weights_block0 (c : Dev nD) (t : Fin cfg0.N) :
    (iblk0 V c 1 t : Vec Ideal S128x128 .f32) = (V c main_arg3 : S128x128.Idx → EReal) := by
  obtain ⟨-, -, e2, e3, -⟩ := block_indices0 t
  funext j
  unfold iblk0
  rw [View.read_apply]
  show V c main_arg3 _ = V c main_arg3 j
  congr 1
  funext a
  apply Fin.ext
  match a with
  | ⟨0, _⟩ => show win0_1.index t (0 : Fin 2) * 128 + 1 * (j 0).val = (j 0).val; omega
  | ⟨1, _⟩ => show win0_1.index t (1 : Fin 2) * 128 + 1 * (j 1).val = (j 1).val; omega

/-- The bias block at every point is the whole message bias. -/
theorem bias_block0 (c : Dev nD) (t : Fin cfg0.N) :
    (iblk0 V c 2 t : Vec Ideal S128 .f32) = (V c main_arg4 : S128.Idx → EReal) := by
  obtain ⟨-, -, -, -, e4, -⟩ := block_indices0 t
  funext j
  unfold iblk0
  rw [View.read_apply]
  show V c main_arg4 _ = V c main_arg4 j
  congr 1
  funext a
  apply Fin.ext
  match a with
  | ⟨0, _⟩ => show win0_2.index t (0 : Fin 1) * 128 + 1 * (j 0).val = (j 0).val; omega

/-- The message row function, argument by argument. -/
theorem msgRow_congr {x x' : Fin 128 → EReal} {W W' : Mat 128 128} {b b' : Vec1 128} (hx : x = x') (hW : W = W') (hb : b = b')
    (q : Fin 128) : msgRow x W b q = msgRow x' W' b' q := by
  subst hx hW hb; rfl

/-- Entry (p, q) of the output block at point t sits at entry (2000·t + p, q) of the output array. -/
theorem msg_block_entry (t : Fin cfg0.N) (p : Fin 2000) (q : Fin 128) (r : Fin 50000) (hr : r.val = 2000 * t.val + p.val) :
    ((cfg0.win 3).blk t).view.emb (ix2 p q) = (ix2 r q : S50000x128.Idx) := by
  obtain ⟨-, -, -, -, -, e5, e6⟩ := block_indices0 t
  funext a
  apply Fin.ext
  match a with
  | ⟨0, _⟩ => show win0_3.index t (0 : Fin 2) * 2000 + 1 * p.val = r.val; omega
  | ⟨1, _⟩ => show win0_3.index t (1 : Fin 2) * 128 + 1 * q.val = q.val; omega

/-- What point t writes back is block t of every node's message. -/
theorem msg_flushed (c : Dev nD) (t : Fin cfg0.N) :
    (dat0 (F := Ideal) V c).flushed 3 t
      = ((cfg0.win 3).blk t).view.read (Elt Ideal) (msgArr (V c main_arg0) (V c main_arg3) (V c main_arg4)) := by
  show (cfg0.win 3).cut (grid0.coords t) ((dat0 V c).after 3 t) = _
  rw [after0_3]
  unfold out0_3
  rw [View.canon_unit_zero zero_offsets_rank2]
  simp only [View.ld_unit_zero (S := S2000x128) zero_offsets_rank2, View.ld_unit_zero (S := S128x128) zero_offsets_rank2,
    View.ld_unit_zero (S := S128) zero_offsets_rank1]
  funext j
  obtain ⟨p, q, rfl⟩ : ∃ (p : Fin 2000) (q : Fin 128), j = ix2 p q := ⟨j 0, j 1, eq_ix2 j⟩
  have ht : t.val < 25 := lt_of_lt_of_eq t.isLt grid0_points
  obtain ⟨r, hr⟩ : ∃ r : Fin 50000, r.val = 2000 * t.val + p.val := ⟨⟨2000 * t.val + p.val, by have := p.isLt; omega⟩, rfl⟩
  show k0_pay1 (F := Ideal) (iblk0 V c 0 t) (iblk0 V c 1 t) (iblk0 V c 2 t) (ix2 p q)
    = msgArr (V c main_arg0) (V c main_arg3) (V c main_arg4) (((cfg0.win 3).blk t).view.emb (ix2 p q))
  refine (pay_msg _ _ _ p q).trans ?_
  refine Eq.trans ?_ (congrArg (msgArr (V c main_arg0) (V c main_arg3) (V c main_arg4)) (msg_block_entry t p q r hr)).symm
  show msgRow _ _ _ q = msgRow (fun k => (V c main_arg0 : S50000x128.Idx → EReal) (ix2 r k)) (V c main_arg3) (V c main_arg4) q
  exact msgRow_congr (funext fun k => features_block0 V c t p k r hr) (weights_block0 V c t) (bias_block0 V c t) q

/-- An entry of the output array is in point t's block iff each coordinate is in the block's range on its axis. -/
theorem mem_msg_block (t : Fin cfg0.N) (i : S50000x128.Idx) :
    i ∈ ((cfg0.win 3).blk t).view.set
      ↔ ∀ a : Fin 2, win0_3.index t a * S2000x128.size a ≤ (i a).val ∧ (i a).val < win0_3.index t a * S2000x128.size a + S2000x128.size a := by
  show i ∈ ((View.whole main_v4).slice (win0_3.rect t)).set ↔ _
  rw [View.set_slice_whole, Rect.mem_set_unit]
  exact Iff.rfl

/-- Every entry of the output array is written back by some point: row r by point r / 2000. -/
theorem msg_cover (i : S50000x128.Idx) :
    ∃ t : Fin cfg0.N, (cfg0.win 3).flush t = true ∧ i ∈ ((cfg0.win 3).blk t).view.set := by
  have h0 : (i 0).val < 50000 := (i 0).isLt
  have h1 : (i 1).val < 128 := (i 1).isLt
  obtain ⟨t, ht⟩ : ∃ t : Fin cfg0.N, t.val = (i 0).val / 2000 := ⟨⟨(i 0).val / 2000, by rw [grid0_points]; omega⟩, rfl⟩
  obtain ⟨-, -, -, -, -, e5, e6⟩ := block_indices0 t
  refine ⟨t, flush0_3 t, ?_⟩
  rw [mem_msg_block]
  intro a
  match a with
  | ⟨0, _⟩ =>
    show win0_3.index t (0 : Fin 2) * 2000 ≤ (i 0).val ∧ (i 0).val < win0_3.index t (0 : Fin 2) * 2000 + 2000
    omega
  | ⟨1, _⟩ =>
    show win0_3.index t (1 : Fin 2) * 128 ≤ (i 1).val ∧ (i 1).val < win0_3.index t (1 : Fin 2) * 128 + 128
    omega

/-- After region 0 its output array holds every node's message, of the features, weights and bias the region found. -/
theorem msg_final (c : Dev nD) :
    (dat0 (F := Ideal) V c).arrAt 3 cfg0.N = msgArr (V c main_arg0) (V c main_arg3) (V c main_arg4) :=
  (dat0 (F := Ideal) V c).arrAt_eq_of_cover 3 (msgArr (V c main_arg0) (V c main_arg3) (V c main_arg4))
    (fun t _ => msg_flushed V c t) msg_cover

end Cert.KernelBlocks

end
-- ==== Proof.Blocks1.lean ====
/-
  The update-and-gate kernel's two output arrays after its run.

  The grid has 25 points; point t loads rows 2000·t … 2000·t + 1999 of the node features, of the aggregated messages
  and of the importance column, and the whole weights, and writes back the same rows of both outputs: the gated mix
  and the propagated importance of those nodes. The 25 blocks together leave each array holding its value for every node.
-/
import proofs.«155361_j71459665871600_1_alg».proof.Proof.Gen.KernelIdeal.Frame
import proofs.«155361_j71459665871600_1_alg».proof.Proof.KernelRows

set_option maxRecDepth 16384

noncomputable section

namespace Cert.KernelBlocks

open Idealize.ShloMosaic Idealize.ShloMosaic.TcCoe Idealize.ShloMosaic.ValueIdx Idealize.SL.Sem
open Idealize.ShloMosaic.Pipeline (Dat Cfg Window)
open Cert.LibRows Cert.Rows Cert.KernelRows Cert.KernelIdeal Cert.KernelIdeal.Gen

-- the TensorCore's buffer contents when the region is entered
variable (V : (c : Dev nD) → (b : Ref sig .tc) → Buf (Elt Ideal) ((c : Thread nD τ).loc b))

/-- The zero offsets of a whole rank-2 block, as a constant function. -/
theorem zero_offsets2 : (![0, 0] : Fin 2 → Nat) = fun _ => 0 := funext fun a => by fin_cases a <;> rfl
/-- The zero offset of a whole rank-1 block, as a constant function. -/
theorem zero_offsets1 : (![0] : Fin 1 → Nat) = fun _ => 0 := funext fun a => by fin_cases a <;> rfl

/-- The block indices at the 25 grid points: the three per-node inputs and the two outputs are at row block t and
    column block 0. -/
theorem row_block_indices1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_9.index t (0 : Fin 2) = t.val ∧ win1_9.index t (1 : Fin 2) = 0
    ∧ win1_10.index t (0 : Fin 2) = t.val ∧ win1_10.index t (1 : Fin 2) = 0 :=
  (by decide +kernel : ∀ t : Fin grid1.N, _)

/-- The weight and bias windows stay at block 0 on every axis. -/
theorem weight_block_indices1 : ∀ t : Fin cfg1.N,
    win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0
    ∧ win1_7.index t (0 : Fin 2) = 0 ∧ win1_7.index t (1 : Fin 2) = 0
    ∧ win1_8.index t (0 : Fin 1) = 0 :=
  (by decide +kernel : ∀ t : Fin grid1.N, _)

/-- The grid has 25 points. -/
theorem grid1_points : cfg1.N = 25 := by decide +kernel

/-! ## The loaded blocks, read off the arrays -/

/-- Entry (p, k) of the feature block at point t is entry (2000·t + p, k) of the node features. -/
theorem features_block1 (c : Dev nD) (t : Fin cfg1.N) (p : Fin 2000) (k : Fin 128) (r : Fin 50000)
    (hr : r.val = 2000 * t.val + p.val) :
    (iblk1 V c 0 t : Vec Ideal S2000x128 .f32) (ix2 p k) = (V c main_arg0 : S50000x128.Idx → EReal) (ix2 r k) := by
  obtain ⟨e0, e1, -⟩ := row_block_indices1 t
  unfold iblk1
  rw [View.read_apply]
  show V c main_arg0 _ = V c main_arg0 _
  congr 1
  funext a
  apply Fin.ext
  match a with
  | ⟨0, _⟩ => show win1_0.index t (0 : Fin 2) * 2000 + 1 * p.val = r.val; omega
  | ⟨1, _⟩ => show win1_0.index t (1 : Fin 2) * 128 + 1 * k.val = k.val; omega

/-- Entry (p, k) of the aggregated-message block at point t is entry (2000·t + p, k) of the aggregated messages. -/
theorem aggregated_block1 (c : Dev nD) (t : Fin cfg1.N) (p : Fin 2000) (k : Fin 128) (r : Fin 50000)
    (hr : r.val = 2000 * t.val + p.val) :
    (iblk1 V c 1 t : Vec Ideal S2000x128 .f32) (ix2 p k) = (V c main_v14 : S50000x128.Idx → EReal) (ix2 r k) := by
  obtain ⟨-, -, e2, e3, -⟩ := row_block_indices1 t
  unfold iblk1
  rw [View.read_apply]
  show V c main_v14 _ = V c main_v14 _
  congr 1
  funext a
  apply Fin.ext
  match a with
  | ⟨0, _⟩ => show win1_1.index t (0 : Fin 2) * 2000 + 1 * p.val = r.val; omega
  | ⟨1, _⟩ => show win1_1.index t (1 : Fin 2) * 128 + 1 * k.val = k.val; omega

/-- Entry (p, k) of the importance block at point t is entry (2000·t + p, k) of the importance column. -/
theorem importance_block1 (c : Dev nD) (t : Fin cfg1.N) (p : Fin 2000) (k : Fin 1) (r : Fin 50000)
    (hr : r.val = 2000 * t.val + p.val) :
    (iblk1 V c 2 t : Vec Ideal S2000x1 .f32) (ix2 p k) = (V c main_arg2 : S50000x1.Idx → EReal) (ix2 r k) := by
  obtain ⟨-, -, -, -, e4, e5, -⟩ := row_block_indices1 t
  unfold iblk1
  rw [View.read_apply]
  show V c main_arg2 _ = V c main_arg2 _
  congr 1
  funext a
  apply Fin.ext
  match a with
  | ⟨0, _⟩ => show win1_2.index t (0 : Fin 2) * 2000 + 1 * p.val = r.val; omega
  | ⟨1, _⟩ => show win1_2.index t (1 : Fin 2) * 1 + 1 * k.val = k.val; omega

/-- The update-weight block at every point is the whole update weight matrix. -/
theorem update_weights_block1 (c : Dev nD) (t : Fin cfg1.N) :
    (iblk1 V c 3 t : Vec Ideal S256x128 .f32) = (V c main_arg5 : S256x128.Idx → EReal) := by
  obtain ⟨e0, e1, -⟩ := weight_block_indices1 t
  funext j
  unfold iblk1
  rw [View.read_apply]
  show V c main_arg5 _ = V c main_arg5 j
  congr 1
  funext a
  apply Fin.ext
  match a with
  | ⟨0, _⟩ => show win1_3.index t (0 : Fin 2) * 256 + 1 * (j 0).val = (j 0).val; omega
  | ⟨1, _⟩ => show win1_3.index t (1 : Fin 2) * 128 + 1 * (j 1).val = (j 1).val; omega

/-- The update-bias block at every point is the whole update bias. -/
theorem update_bias_block1 (c : Dev nD) (t : Fin cfg1.N) :
    (iblk1 V c 4 t : Vec Ideal S128 .f32) = (V c main_arg6 : S128.Idx → EReal) := by
  obtain ⟨-, -, e2, -⟩ := weight_block_indices1 t
  funext j
  unfold iblk1
  rw [View.read_apply]
  show V c main_arg6 _ = V c main_arg6 j
  congr 1
  funext a
  apply Fin.ext
  match a with
  | ⟨0, _⟩ => show win1_4.index t (0 : Fin 1) * 128 + 1 * (j 0).val = (j 0).val; omega

/-- The gate-weight block at every point is the whole gate weight matrix. -/
theorem gate_weights_block1 (c : Dev nD) (t : Fin cfg1.N) :
    (iblk1 V c 5 t : Vec Ideal S129x128 .f32) = (V c main_arg7 : S129x128.Idx → EReal) := by
  obtain ⟨-, -, -, e3, e4, -⟩ := weight_block_indices1 t
  funext j
  unfold iblk1
  rw [View.read_apply]
  show V c main_arg7 _ = V c main_arg7 j
  congr 1
  funext a
  apply Fin.ext
  match a with
  | ⟨0, _⟩ => show win1_5.index t (0 : Fin 2) * 129 + 1 * (j 0).val = (j 0).val; omega
  | ⟨1, _⟩ => show win1_5.index t (1 : Fin 2) * 128 + 1 * (j 1).val = (j 1).val; omega

/-- The gate-bias block at every point is the whole gate bias. -/
theorem gate_bias_block1 (c : Dev nD) (t : Fin cfg1.N) :
    (iblk1 V c 6 t : Vec Ideal S128 .f32) = (V c main_arg8 : S128.Idx → EReal) := by
  obtain ⟨-, -, -, -, -, e5, -⟩ := weight_block_indices1 t
  funext j
  unfold iblk1
  rw [View.read_apply]
  show V c main_arg8 _ = V c main_arg8 j
  congr 1
  funext a
  apply Fin.ext
  match a with
  | ⟨0, _⟩ => show win1_6.index t (0 : Fin 1) * 128 + 1 * (j 0).val = (j 0).val; omega

/-- The importance-weight block at every point is the whole importance weight column. -/
theorem head_weights_block1 (c : Dev nD) (t : Fin cfg1.N) :
    (iblk1 V c 7 t : Vec Ideal S128x1 .f32) = (V c main_arg9 : S128x1.Idx → EReal) := by
  obtain ⟨-, -, -, -, -, -, e6, e7, -⟩ := weight_block_indices1 t
  funext j
  unfold iblk1
  rw [View.read_apply]
  show V c main_arg9 _ = V c main_arg9 j
  congr 1
  funext a
  apply Fin.ext
  match a with
  | ⟨0, _⟩ => show win1_7.index t (0 : Fin 2) * 128 + 1 * (j 0).val = (j 0).val; omega
  | ⟨1, _⟩ => show win1_7.index t (1 : Fin 2) * 1 + 1 * (j 1).val = (j 1).val; omega

/-- The importance-bias block at every point is the whole one-entry importance bias. -/
theorem head_bias_block1 (c : Dev nD) (t : Fin cfg1.N) :
    (iblk1 V c 8 t : Vec Ideal S1 .f32) = (V c main_arg10 : S1.Idx → EReal) := by
  obtain ⟨-, -, -, -, -, -, -, -, e8⟩ := weight_block_indices1 t
  funext j
  unfold iblk1
  rw [View.read_apply]
  show V c main_arg10 _ = V c main_arg10 j
  congr 1
  funext a
  apply Fin.ext
  match a with
  | ⟨0, _⟩ => show win1_8.index t (0 : Fin 1) * 1 + 1 * (j 0).val = (j 0).val; omega

/-! ## The row functions, argument by argument -/

/-- The gated mix of a node, argument by argument. -/
theorem mixRow_congr {x x' a a' : Fin 128 → EReal} {i i' : Fin 1 → EReal} {Wu Wu' : Mat 256 128} {bu bu' : Vec1 128}
    {Wg Wg' : Mat 129 128} {bg bg' : Vec1 128} (hx : x = x') (ha : a = a') (hi : i = i') (hWu : Wu = Wu') (hbu : bu = bu')
    (hWg : Wg = Wg') (hbg : bg = bg') (q : Fin 128) :
    mixRow x a i Wu bu Wg bg q = mixRow x' a' i' Wu' bu' Wg' bg' q := by
  subst hx ha hi hWu hbu hWg hbg; rfl

/-- The propagated importance of a node, argument by argument. -/
theorem headRow_congr {x x' a a' : Fin 128 → EReal} {i i' : Fin 1 → EReal} {Wu Wu' : Mat 256 128} {bu bu' : Vec1 128}
    {Wg Wg' : Mat 129 128} {bg bg' : Vec1 128} {Wi Wi' : Mat 128 1} {bi bi' : Vec1 1} (hx : x = x') (ha : a = a') (hi : i = i')
    (hWu : Wu = Wu') (hbu : bu = bu') (hWg : Wg = Wg') (hbg : bg = bg') (hWi : Wi = Wi') (hbi : bi = bi') :
    headRow x a i Wu bu Wg bg Wi bi = headRow x' a' i' Wu' bu' Wg' bg' Wi' bi' := by
  subst hx ha hi hWu hbu hWg hbg hWi hbi; rfl

/-! ## The first output: the gated mix -/

/-- Entry (p, q) of the first output's block at point t sits at entry (2000·t + p, q) of its array. -/
theorem mix_block_entry (t : Fin cfg1.N) (p : Fin 2000) (q : Fin 128) (r : Fin 50000) (hr : r.val = 2000 * t.val + p.val) :
    ((cfg1.win 9).blk t).view.emb (ix2 p q) = (ix2 r q : S50000x128.Idx) := by
  obtain ⟨-, -, -, -, -, -, e6, e7, -⟩ := row_block_indices1 t
  funext a
  apply Fin.ext
  match a with
  | ⟨0, _⟩ => show win1_9.index t (0 : Fin 2) * 2000 + 1 * p.val = r.val; omega
  | ⟨1, _⟩ => show win1_9.index t (1 : Fin 2) * 128 + 1 * q.val = q.val; omega

/-- What point t writes back to the first output is block t of every node's gated mix. -/
theorem mix_flushed (c : Dev nD) (t : Fin cfg1.N) :
    (dat1 (F := Ideal) V c).flushed 9 t
      = ((cfg1.win 9).blk t).view.read (Elt Ideal) (mixArr (V c main_arg0) (V c main_v14) (V c main_arg2) (V c main_arg5) (V c main_arg6) (V c main_arg7) (V c main_arg8)) := by
  show (cfg1.win 9).cut (grid1.coords t) ((dat1 V c).after 9 t) = _
  rw [after1_9]
  unfold out1_9
  rw [View.canon_unit_zero zero_offsets2]
  simp only [View.ld_unit_zero (S := S2000x128) zero_offsets2, View.ld_unit_zero (S := S2000x1) zero_offsets2,
    View.ld_unit_zero (S := S256x128) zero_offsets2, View.ld_unit_zero (S := S129x128) zero_offsets2,
    View.ld_unit_zero (S := S128) zero_offsets1]
  funext j
  obtain ⟨p, q, rfl⟩ : ∃ (p : Fin 2000) (q : Fin 128), j = ix2 p q := ⟨j 0, j 1, eq_ix2 j⟩
  have ht : t.val < 25 := lt_of_lt_of_eq t.isLt grid1_points
  obtain ⟨r, hr⟩ : ∃ r : Fin 50000, r.val = 2000 * t.val + p.val := ⟨⟨2000 * t.val + p.val, by have := p.isLt; omega⟩, rfl⟩
  show k1_pay1 (F := Ideal) (iblk1 V c 0 t) (iblk1 V c 1 t) (iblk1 V c 2 t) (iblk1 V c 3 t) (iblk1 V c 4 t) (iblk1 V c 5 t)
      (iblk1 V c 6 t) (ix2 p q)
    = mixArr (V c main_arg0) (V c main_v14) (V c main_arg2) (V c main_arg5) (V c main_arg6) (V c main_arg7) (V c main_arg8) (((cfg1.win 9).blk t).view.emb (ix2 p q))
  refine (pay_mix _ _ _ _ _ _ _ p q).trans ?_
  refine Eq.trans ?_ (congrArg (mixArr (V c main_arg0) (V c main_v14) (V c main_arg2) (V c main_arg5) (V c main_arg6) (V c main_arg7) (V c main_arg8)) (mix_block_entry t p q r hr)).symm
  show mixRow _ _ _ _ _ _ _ q
    = mixRow (fun k => (V c main_arg0 : S50000x128.Idx → EReal) (ix2 r k)) (fun k => (V c main_v14 : S50000x128.Idx → EReal) (ix2 r k))
        (fun k => (V c main_arg2 : S50000x1.Idx → EReal) (ix2 r k)) (V c main_arg5) (V c main_arg6) (V c main_arg7) (V c main_arg8) q
  exact mixRow_congr (funext fun k => features_block1 V c t p k r hr) (funext fun k => aggregated_block1 V c t p k r hr)
    (funext fun k => importance_block1 V c t p k r hr) (update_weights_block1 V c t) (update_bias_block1 V c t)
    (gate_weights_block1 V c t) (gate_bias_block1 V c t) q

/-- An entry of the first output array is in point t's block iff each coordinate is in the block's range on its axis. -/
theorem mem_mix_block (t : Fin cfg1.N) (i : S50000x128.Idx) :
    i ∈ ((cfg1.win 9).blk t).view.set
      ↔ ∀ a : Fin 2, win1_9.index t a * S2000x128.size a ≤ (i a).val ∧ (i a).val < win1_9.index t a * S2000x128.size a + S2000x128.size a := by
  show i ∈ ((View.whole main_v15_0).slice (win1_9.rect t)).set ↔ _
  rw [View.set_slice_whole, Rect.mem_set_unit]
  exact Iff.rfl

/-- Every entry of the first output array is written back by some point: row r by point r / 2000. -/
theorem mix_cover (i : S50000x128.Idx) :
    ∃ t : Fin cfg1.N, (cfg1.win 9).flush t = true ∧ i ∈ ((cfg1.win 9).blk t).view.set := by
  have h0 : (i 0).val < 50000 := (i 0).isLt
  have h1 : (i 1).val < 128 := (i 1).isLt
  obtain ⟨t, ht⟩ : ∃ t : Fin cfg1.N, t.val = (i 0).val / 2000 := ⟨⟨(i 0).val / 2000, by rw [grid1_points]; omega⟩, rfl⟩
  obtain ⟨-, -, -, -, -, -, e6, e7, -⟩ := row_block_indices1 t
  refine ⟨t, flush1_9 t, ?_⟩
  rw [mem_mix_block]
  intro a
  match a with
  | ⟨0, _⟩ =>
    show win1_9.index t (0 : Fin 2) * 2000 ≤ (i 0).val ∧ (i 0).val < win1_9.index t (0 : Fin 2) * 2000 + 2000
    omega
  | ⟨1, _⟩ =>
    show win1_9.index t (1 : Fin 2) * 128 ≤ (i 1).val ∧ (i 1).val < win1_9.index t (1 : Fin 2) * 128 + 128
    omega

/-- After region 1 its first output array holds every node's gated mix. -/
theorem mix_final (c : Dev nD) :
    (dat1 (F := Ideal) V c).arrAt 9 cfg1.N
      = mixArr (V c main_arg0) (V c main_v14) (V c main_arg2) (V c main_arg5) (V c main_arg6) (V c main_arg7) (V c main_arg8) :=
  (dat1 (F := Ideal) V c).arrAt_eq_of_cover 9 (mixArr (V c main_arg0) (V c main_v14) (V c main_arg2) (V c main_arg5) (V c main_arg6) (V c main_arg7) (V c main_arg8))
    (fun t _ => mix_flushed V c t) mix_cover

/-! ## The second output: the propagated importance -/

/-- Entry (p, z) of the second output's block at point t sits at entry (2000·t + p, z) of its array. -/
theorem head_block_entry (t : Fin cfg1.N) (p : Fin 2000) (z : Fin 1) (r : Fin 50000) (hr : r.val = 2000 * t.val + p.val) :
    ((cfg1.win 10).blk t).view.emb (ix2 p z) = (ix2 r z : S50000x1.Idx) := by
  obtain ⟨-, -, -, -, -, -, -, -, e8, e9⟩ := row_block_indices1 t
  funext a
  apply Fin.ext
  match a with
  | ⟨0, _⟩ => show win1_10.index t (0 : Fin 2) * 2000 + 1 * p.val = r.val; omega
  | ⟨1, _⟩ => show win1_10.index t (1 : Fin 2) * 1 + 1 * z.val = z.val; omega

/-- What point t writes back to the second output is block t of every node's propagated importance. -/
theorem head_flushed (c : Dev nD) (t : Fin cfg1.N) :
    (dat1 (F := Ideal) V c).flushed 10 t
      = ((cfg1.win 10).blk t).view.read (Elt Ideal) (headArr (V c main_arg0) (V c main_v14) (V c main_arg2) (V c main_arg5) (V c main_arg6) (V c main_arg7) (V c main_arg8) (V c main_arg9) (V c main_arg10)) := by
  show (cfg1.win 10).cut (grid1.coords t) ((dat1 V c).after 10 t) = _
  rw [after1_10]
  unfold out1_10
  rw [View.canon_unit_zero zero_offsets2]
  simp only [View.ld_unit_zero (S := S2000x128) zero_offsets2, View.ld_unit_zero (S := S2000x1) zero_offsets2,
    View.ld_unit_zero (S := S256x128) zero_offsets2, View.ld_unit_zero (S := S129x128) zero_offsets2,
    View.ld_unit_zero (S := S128x1) zero_offsets2, View.ld_unit_zero (S := S128) zero_offsets1,
    View.ld_unit_zero (S := S1) zero_offsets1]
  funext j
  obtain ⟨p, z, rfl⟩ : ∃ (p : Fin 2000) (z : Fin 1), j = ix2 p z := ⟨j 0, j 1, eq_ix2 j⟩
  have ht : t.val < 25 := lt_of_lt_of_eq t.isLt grid1_points
  obtain ⟨r, hr⟩ : ∃ r : Fin 50000, r.val = 2000 * t.val + p.val := ⟨⟨2000 * t.val + p.val, by have := p.isLt; omega⟩, rfl⟩
  show k1_pay2 (F := Ideal) (iblk1 V c 0 t) (iblk1 V c 1 t) (iblk1 V c 2 t) (iblk1 V c 3 t) (iblk1 V c 4 t) (iblk1 V c 5 t)
      (iblk1 V c 6 t) (iblk1 V c 7 t) (iblk1 V c 8 t) (ix2 p z)
    = headArr (V c main_arg0) (V c main_v14) (V c main_arg2) (V c main_arg5) (V c main_arg6) (V c main_arg7) (V c main_arg8) (V c main_arg9) (V c main_arg10) (((cfg1.win 10).blk t).view.emb (ix2 p z))
  refine (pay_head _ _ _ _ _ _ _ _ _ p z).trans ?_
  refine Eq.trans ?_ (congrArg (headArr (V c main_arg0) (V c main_v14) (V c main_arg2) (V c main_arg5) (V c main_arg6) (V c main_arg7) (V c main_arg8) (V c main_arg9) (V c main_arg10)) (head_block_entry t p z r hr)).symm
  show headRow _ _ _ _ _ _ _ _ _
    = headRow (fun k => (V c main_arg0 : S50000x128.Idx → EReal) (ix2 r k)) (fun k => (V c main_v14 : S50000x128.Idx → EReal) (ix2 r k))
        (fun k => (V c main_arg2 : S50000x1.Idx → EReal) (ix2 r k)) (V c main_arg5) (V c main_arg6) (V c main_arg7) (V c main_arg8)
        (V c main_arg9) (V c main_arg10)
  exact headRow_congr (funext fun k => features_block1 V c t p k r hr) (funext fun k => aggregated_block1 V c t p k r hr)
    (funext fun k => importance_block1 V c t p k r hr) (update_weights_block1 V c t) (update_bias_block1 V c t)
    (gate_weights_block1 V c t) (gate_bias_block1 V c t) (head_weights_block1 V c t) (head_bias_block1 V c t)

/-- An entry of the second output array is in point t's block iff each coordinate is in the block's range on its axis. -/
theorem mem_head_block (t : Fin cfg1.N) (i : S50000x1.Idx) :
    i ∈ ((cfg1.win 10).blk t).view.set
      ↔ ∀ a : Fin 2, win1_10.index t a * S2000x1.size a ≤ (i a).val ∧ (i a).val < win1_10.index t a * S2000x1.size a + S2000x1.size a := by
  show i ∈ ((View.whole main_v15_1).slice (win1_10.rect t)).set ↔ _
  rw [View.set_slice_whole, Rect.mem_set_unit]
  exact Iff.rfl

/-- Every entry of the second output array is written back by some point: row r by point r / 2000. -/
theorem head_cover (i : S50000x1.Idx) :
    ∃ t : Fin cfg1.N, (cfg1.win 10).flush t = true ∧ i ∈ ((cfg1.win 10).blk t).view.set := by
  have h0 : (i 0).val < 50000 := (i 0).isLt
  have h1 : (i 1).val < 1 := (i 1).isLt
  obtain ⟨t, ht⟩ : ∃ t : Fin cfg1.N, t.val = (i 0).val / 2000 := ⟨⟨(i 0).val / 2000, by rw [grid1_points]; omega⟩, rfl⟩
  obtain ⟨-, -, -, -, -, -, -, -, e8, e9⟩ := row_block_indices1 t
  refine ⟨t, flush1_10 t, ?_⟩
  rw [mem_head_block]
  intro a
  match a with
  | ⟨0, _⟩ =>
    show win1_10.index t (0 : Fin 2) * 2000 ≤ (i 0).val ∧ (i 0).val < win1_10.index t (0 : Fin 2) * 2000 + 2000
    omega
  | ⟨1, _⟩ =>
    show win1_10.index t (1 : Fin 2) * 1 ≤ (i 1).val ∧ (i 1).val < win1_10.index t (1 : Fin 2) * 1 + 1
    omega

/-- After region 1 its second output array holds every node's propagated importance. -/
theorem head_final (c : Dev nD) :
    (dat1 (F := Ideal) V c).arrAt 10 cfg1.N
      = headArr (V c main_arg0) (V c main_v14) (V c main_arg2) (V c main_arg5) (V c main_arg6) (V c main_arg7) (V c main_arg8)
          (V c main_arg9) (V c main_arg10) :=
  (dat1 (F := Ideal) V c).arrAt_eq_of_cover 10 (headArr (V c main_arg0) (V c main_v14) (V c main_arg2) (V c main_arg5) (V c main_arg6) (V c main_arg7) (V c main_arg8) (V c main_arg9) (V c main_arg10))
    (fun t _ => head_flushed V c t) head_cover

end Cert.KernelBlocks

end
-- ==== Proof.HostSide.lean ====
/-
  What the TensorCore's buffers hold when each kernel region is entered.

  Before the first region the host only slices the edge list into sources and destinations; between the two regions
  it gathers the messages at the sources and adds them up at the destinations. Neither stretch, and neither region,
  writes an argument of the program, so each region finds the arguments as launched; the second region finds, in the
  buffer of the aggregated messages, one function of the first region's output array and of the edge list.
-/
import proofs.«155361_j71459665871600_1_alg».proof.Proof.Gen.KernelIdeal.Frame
import proofs.«155361_j71459665871600_1_alg».proof.Proof.Rows

set_option maxRecDepth 16384

noncomputable section

namespace Cert.KernelHost

open Idealize.ShloMosaic Idealize.ShloMosaic.TcCoe Idealize.ShloMosaic.ValueIdx Idealize.SL.Sem
open Cert.Rows Cert.KernelIdeal Cert.KernelIdeal.Gen

/-- The aggregated messages as the kernel's program computes them from a message array and the edge list: gather
    at the sources (a negative source counted from the end), add up at the destinations. -/
def aggK (msg : Mat 50000 128) (x1 : (⟨S2x800000, .i32⟩ : BufTy).Contents (Elt Ideal)) : Mat 50000 128 :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0
      (shapeCast S800000 (extractStridedSlice S1x800000 ![1, 0] x1 slices_S2x800000_S1x800000_1_0) shapeCasts_S1x800000_S800000))
    (Host.gather gather_S50000x128_S800000x1_S800000x128_1_0_n_n_0_1_1128 msg
      (broadcastInDim S800000x1 ![0] bcast_S800000_S800000x1_0
        (select
          (cmpi .slt (shapeCast S800000 (extractStridedSlice S1x800000 ![0, 0] x1 slices_S2x800000_S1x800000_0_0) shapeCasts_S1x800000_S800000)
            (broadcastInDim S800000 ![] bcast_S_S800000 (constantI S_ 32 0#32)))
          (addi (shapeCast S800000 (extractStridedSlice S1x800000 ![0, 0] x1 slices_S2x800000_S1x800000_0_0) shapeCasts_S1x800000_S800000)
            (broadcastInDim S800000 ![] bcast_S_S800000 (constantI S_ 32 50000#32)))
          (shapeCast S800000 (extractStridedSlice S1x800000 ![0, 0] x1 slices_S2x800000_S1x800000_0_0) shapeCasts_S1x800000_S800000))))

variable (m : (ℓ : Loc nD τ sig) → Buf (Elt Ideal) ℓ) (ρ : Dev nD → PrngReg)

/-! ## A buffer that no operation of a host stretch writes keeps its contents across the stretch -/

/-- Every operation of the stretch writes a buffer other than the given one: the list of operations is gone through
    one by one, and two buffers are told apart as references. -/
local macro "unwritten" : tactic => `(tactic|
  (refine List.forall_iff_forall_mem.mp ?_
   simp only [hostOps0, hostOps1, List.Forall, StableHlo.nullary_writes, StableHlo.unary_writes, StableHlo.binary_writes,
     StableHlo.ternary_writes, StableHlo.reshape_writes, Finset.mem_singleton]
   repeat' apply And.intro
   all_goals exact StableHlo.devRef_ne_of_ne (by decide)))

/-- Across the slicing of the edge list. -/
theorem W1_of_unwritten (c : Dev nD) (b : Ref sig .tc)
    (hb : ∀ op ∈ (hostOps0 : List (HloOp τ sig (Elt Ideal))), (Proc.devRef .tc b : DevRef τ sig) ∉ op.writes) :
    W1 m ρ c (Proc.devRef .tc b) = W0 m ρ c (Proc.devRef .tc b) :=
  StableHlo.after_of_forall_not_mem _ _ hb

/-- Across the gather and the sum. -/
theorem W3_of_unwritten (c : Dev nD) (b : Ref sig .tc)
    (hb : ∀ op ∈ (hostOps1 : List (HloOp τ sig (Elt Ideal))), (Proc.devRef .tc b : DevRef τ sig) ∉ op.writes) :
    W3 m ρ c (Proc.devRef .tc b) = W2 m ρ c (Proc.devRef .tc b) :=
  StableHlo.after_of_forall_not_mem _ _ hb

/-! ## Region 0 finds its three arguments as launched -/

theorem V1_arg0 (c : Dev nD) : V1 m ρ c main_arg0 = m ((c : Thread nD τ).loc main_arg0) :=
  (W1_of_unwritten m ρ c main_arg0 (by unwritten)).trans rfl
theorem V1_arg3 (c : Dev nD) : V1 m ρ c main_arg3 = m ((c : Thread nD τ).loc main_arg3) :=
  (W1_of_unwritten m ρ c main_arg3 (by unwritten)).trans rfl
theorem V1_arg4 (c : Dev nD) : V1 m ρ c main_arg4 = m ((c : Thread nD τ).loc main_arg4) :=
  (W1_of_unwritten m ρ c main_arg4 (by unwritten)).trans rfl

/-! ## Region 1 finds its eight arguments as launched, and the aggregated messages -/

theorem V3_arg0 (c : Dev nD) : V3 m ρ c main_arg0 = m ((c : Thread nD τ).loc main_arg0) :=
  calc W3 m ρ c (Proc.devRef .tc main_arg0)
    _ = W2 m ρ c (Proc.devRef .tc main_arg0) := W3_of_unwritten m ρ c main_arg0 (by unwritten)
    _ = W1 m ρ c (Proc.devRef .tc main_arg0) := (W2_arr m ρ c 0).trans (((dat0 (V1 m ρ) c).arrAt_in 0 rfl _).trans (A_eq0 (V1 m ρ) c 0))
    _ = m ((c : Thread nD τ).loc main_arg0) := (W1_of_unwritten m ρ c main_arg0 (by unwritten)).trans rfl
theorem V3_arg2 (c : Dev nD) : V3 m ρ c main_arg2 = m ((c : Thread nD τ).loc main_arg2) :=
  calc W3 m ρ c (Proc.devRef .tc main_arg2)
    _ = W2 m ρ c (Proc.devRef .tc main_arg2) := W3_of_unwritten m ρ c main_arg2 (by unwritten)
    _ = W1 m ρ c (Proc.devRef .tc main_arg2) := W2_of_ne m ρ c main_arg2 (by decide)
    _ = m ((c : Thread nD τ).loc main_arg2) := (W1_of_unwritten m ρ c main_arg2 (by unwritten)).trans rfl
theorem V3_arg5 (c : Dev nD) : V3 m ρ c main_arg5 = m ((c : Thread nD τ).loc main_arg5) :=
  calc W3 m ρ c (Proc.devRef .tc main_arg5)
    _ = W2 m ρ c (Proc.devRef .tc main_arg5) := W3_of_unwritten m ρ c main_arg5 (by unwritten)
    _ = W1 m ρ c (Proc.devRef .tc main_arg5) := W2_of_ne m ρ c main_arg5 (by decide)
    _ = m ((c : Thread nD τ).loc main_arg5) := (W1_of_unwritten m ρ c main_arg5 (by unwritten)).trans rfl
theorem V3_arg6 (c : Dev nD) : V3 m ρ c main_arg6 = m ((c : Thread nD τ).loc main_arg6) :=
  calc W3 m ρ c (Proc.devRef .tc main_arg6)
    _ = W2 m ρ c (Proc.devRef .tc main_arg6) := W3_of_unwritten m ρ c main_arg6 (by unwritten)
    _ = W1 m ρ c (Proc.devRef .tc main_arg6) := W2_of_ne m ρ c main_arg6 (by decide)
    _ = m ((c : Thread nD τ).loc main_arg6) := (W1_of_unwritten m ρ c main_arg6 (by unwritten)).trans rfl
theorem V3_arg7 (c : Dev nD) : V3 m ρ c main_arg7 = m ((c : Thread nD τ).loc main_arg7) :=
  calc W3 m ρ c (Proc.devRef .tc main_arg7)
    _ = W2 m ρ c (Proc.devRef .tc main_arg7) := W3_of_unwritten m ρ c main_arg7 (by unwritten)
    _ = W1 m ρ c (Proc.devRef .tc main_arg7) := W2_of_ne m ρ c main_arg7 (by decide)
    _ = m ((c : Thread nD τ).loc main_arg7) := (W1_of_unwritten m ρ c main_arg7 (by unwritten)).trans rfl
theorem V3_arg8 (c : Dev nD) : V3 m ρ c main_arg8 = m ((c : Thread nD τ).loc main_arg8) :=
  calc W3 m ρ c (Proc.devRef .tc main_arg8)
    _ = W2 m ρ c (Proc.devRef .tc main_arg8) := W3_of_unwritten m ρ c main_arg8 (by unwritten)
    _ = W1 m ρ c (Proc.devRef .tc main_arg8) := W2_of_ne m ρ c main_arg8 (by decide)
    _ = m ((c : Thread nD τ).loc main_arg8) := (W1_of_unwritten m ρ c main_arg8 (by unwritten)).trans rfl
theorem V3_arg9 (c : Dev nD) : V3 m ρ c main_arg9 = m ((c : Thread nD τ).loc main_arg9) :=
  calc W3 m ρ c (Proc.devRef .tc main_arg9)
    _ = W2 m ρ c (Proc.devRef .tc main_arg9) := W3_of_unwritten m ρ c main_arg9 (by unwritten)
    _ = W1 m ρ c (Proc.devRef .tc main_arg9) := W2_of_ne m ρ c main_arg9 (by decide)
    _ = m ((c : Thread nD τ).loc main_arg9) := (W1_of_unwritten m ρ c main_arg9 (by unwritten)).trans rfl
theorem V3_arg10 (c : Dev nD) : V3 m ρ c main_arg10 = m ((c : Thread nD τ).loc main_arg10) :=
  calc W3 m ρ c (Proc.devRef .tc main_arg10)
    _ = W2 m ρ c (Proc.devRef .tc main_arg10) := W3_of_unwritten m ρ c main_arg10 (by unwritten)
    _ = W1 m ρ c (Proc.devRef .tc main_arg10) := W2_of_ne m ρ c main_arg10 (by decide)
    _ = m ((c : Thread nD τ).loc main_arg10) := (W1_of_unwritten m ρ c main_arg10 (by unwritten)).trans rfl

/-! ## The aggregated messages

  Reading the buffer of the aggregated messages back through the operations between the two regions leaves the sum,
  over the destinations, of the rows of region 0's output gathered at the sources; sources and destinations are the two
  rows of the edge list, cut out before region 0, which does not touch them. -/

/-- The sources: row 0 of the edge list, as a vector. -/
def edgeSrc (x1 : (⟨S2x800000, .i32⟩ : BufTy).Contents (Elt Ideal)) : (⟨S800000, .i32⟩ : BufTy).Contents (Elt Ideal) :=
  shapeCast S800000 (extractStridedSlice S1x800000 ![0, 0] x1 slices_S2x800000_S1x800000_0_0) shapeCasts_S1x800000_S800000

/-- The destinations: row 1 of the edge list, as a vector. -/
def edgeDst (x1 : (⟨S2x800000, .i32⟩ : BufTy).Contents (Elt Ideal)) : (⟨S800000, .i32⟩ : BufTy).Contents (Elt Ideal) :=
  shapeCast S800000 (extractStridedSlice S1x800000 ![1, 0] x1 slices_S2x800000_S1x800000_1_0) shapeCasts_S1x800000_S800000

/-- The aggregation from a message array, the sources and the destinations: gather at the sources (a negative source
    counted from the end), add up at the destinations, starting from zero. -/
def aggParts (msg : Mat 50000 128) (src dst : (⟨S800000, .i32⟩ : BufTy).Contents (Elt Ideal)) : Mat 50000 128 :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 dst)
    (Host.gather gather_S50000x128_S800000x1_S800000x128_1_0_n_n_0_1_1128 msg
      (broadcastInDim S800000x1 ![0] bcast_S800000_S800000x1_0
        (select
          (cmpi .slt src (broadcastInDim S800000 ![] bcast_S_S800000 (constantI S_ 32 0#32)))
          (addi src (broadcastInDim S800000 ![] bcast_S_S800000 (constantI S_ 32 50000#32)))
          src)))

/-- `aggK` is that aggregation at the two rows of the edge list. -/
theorem aggK_eq_aggParts (msg : Mat 50000 128) (x1 : (⟨S2x800000, .i32⟩ : BufTy).Contents (Elt Ideal)) :
    aggK msg x1 = aggParts msg (edgeSrc x1) (edgeDst x1) := rfl

/-- The thirteen operations between the regions, read at the buffer of the aggregated messages, from any contents. -/
theorem after_hostOps1_agg (G : Valuation τ sig (Elt Ideal)) :
    StableHlo.after hostOps1 G (Proc.devRef .tc main_v14)
      = aggParts (G (Proc.devRef .tc main_v4)) (G (Proc.devRef .tc main_v1)) (G (Proc.devRef .tc main_v3)) := by
  after_results
  rfl

/-- The four operations before region 0, read at the buffer of the sources, from any contents. -/
theorem after_hostOps0_src (G : Valuation τ sig (Elt Ideal)) :
    StableHlo.after hostOps0 G (Proc.devRef .tc main_v1) = edgeSrc (G (Proc.devRef .tc main_arg1)) := by
  after_results
  rfl

/-- The four operations before region 0, read at the buffer of the destinations, from any contents. -/
theorem after_hostOps0_dst (G : Valuation τ sig (Elt Ideal)) :
    StableHlo.after hostOps0 G (Proc.devRef .tc main_v3) = edgeDst (G (Proc.devRef .tc main_arg1)) := by
  after_results
  rfl

/-- Region 0 leaves the sources where the slicing put them. -/
theorem W2_src (c : Dev nD) : W2 m ρ c (Proc.devRef .tc main_v1) = edgeSrc (m ((c : Thread nD τ).loc main_arg1)) :=
  (W2_of_ne m ρ c main_v1 (by decide)).trans (after_hostOps0_src (W0 m ρ c))

/-- Region 0 leaves the destinations where the slicing put them. -/
theorem W2_dst (c : Dev nD) : W2 m ρ c (Proc.devRef .tc main_v3) = edgeDst (m ((c : Thread nD τ).loc main_arg1)) :=
  (W2_of_ne m ρ c main_v3 (by decide)).trans (after_hostOps0_dst (W0 m ρ c))

/-- The buffer of the aggregated messages, as region 1 finds it: the aggregation of region 0's output array. -/
theorem V3_agg (c : Dev nD) :
    V3 m ρ c main_v14 = aggK (V2 m ρ c main_v4) (m ((c : Thread nD τ).loc main_arg1)) :=
  calc W3 m ρ c (Proc.devRef .tc main_v14)
    _ = aggParts (W2 m ρ c (Proc.devRef .tc main_v4)) (W2 m ρ c (Proc.devRef .tc main_v1)) (W2 m ρ c (Proc.devRef .tc main_v3)) :=
        after_hostOps1_agg (W2 m ρ c)
    _ = aggParts (W2 m ρ c (Proc.devRef .tc main_v4)) (edgeSrc (m ((c : Thread nD τ).loc main_arg1))) (edgeDst (m ((c : Thread nD τ).loc main_arg1))) :=
        congrArg₂ (aggParts (W2 m ρ c (Proc.devRef .tc main_v4))) (W2_src m ρ c) (W2_dst m ρ c)
    _ = aggK (V2 m ρ c main_v4) (m ((c : Thread nD τ).loc main_arg1)) := (aggK_eq_aggParts _ _).symm

end Cert.KernelHost

end
-- ==== Proof.KernelValue.lean ====
/-
  The idealized kernel program's two results as functions of its arguments.

  Region 0 leaves every node's message in its output array. The host then aggregates the messages along the edges;
  that stretch is carried as one function `aggK` of the message array and of the edge list and never opened. Region 1
  finds the arguments as launched and the aggregated messages in its second window, and leaves every node's gated mix
  and propagated importance in its two output arrays. Chained through the contents at the segment boundaries, the
  two result buffers after the run are `mixArr` and `headArr` of the launch arguments over
  `aggK (msgArr x W_msg b_msg) edge_index`.
-/
import proofs.«155361_j71459665871600_1_alg».proof.Proof.KernelRun
import proofs.«155361_j71459665871600_1_alg».proof.Proof.Blocks0
import proofs.«155361_j71459665871600_1_alg».proof.Proof.Blocks1
import proofs.«155361_j71459665871600_1_alg».proof.Proof.HostSide

set_option maxRecDepth 16384

noncomputable section

namespace Cert.KernelValue

open Idealize.ShloMosaic Idealize.ShloMosaic.TcCoe Idealize.SL.Sem
open Cert.Rows Cert.KernelIdeal Cert.KernelIdeal.Gen Cert.KernelBlocks Cert.KernelHost

variable (m : (ℓ : Loc nD τ sig) → Buf (Elt Ideal) ℓ) (ρ : Dev nD → PrngReg)

/-- Every node's message, of the launch arguments. -/
def msgs (c : Dev nD) : Mat 50000 128 :=
  msgArr (m ((c : Thread nD τ).loc main_arg0)) (m ((c : Thread nD τ).loc main_arg3)) (m ((c : Thread nD τ).loc main_arg4))

/-- The first result: every node's gated mix, of the launch arguments. -/
def out0 (c : Dev nD) : Mat 50000 128 :=
  mixArr (m ((c : Thread nD τ).loc main_arg0)) (aggK (msgs m c) (m ((c : Thread nD τ).loc main_arg1)))
    (m ((c : Thread nD τ).loc main_arg2)) (m ((c : Thread nD τ).loc main_arg5)) (m ((c : Thread nD τ).loc main_arg6))
    (m ((c : Thread nD τ).loc main_arg7)) (m ((c : Thread nD τ).loc main_arg8))

/-- The second result: every node's propagated importance, of the launch arguments. -/
def out1 (c : Dev nD) : Mat 50000 1 :=
  headArr (m ((c : Thread nD τ).loc main_arg0)) (aggK (msgs m c) (m ((c : Thread nD τ).loc main_arg1)))
    (m ((c : Thread nD τ).loc main_arg2)) (m ((c : Thread nD τ).loc main_arg5)) (m ((c : Thread nD τ).loc main_arg6))
    (m ((c : Thread nD τ).loc main_arg7)) (m ((c : Thread nD τ).loc main_arg8)) (m ((c : Thread nD τ).loc main_arg9))
    (m ((c : Thread nD τ).loc main_arg10))

/-- Region 0's output array, at the region's exit, holds every node's message. -/
theorem msgs_at_exit (c : Dev nD) : V2 m ρ c main_v4 = msgs m c := by
  refine (W2_arr m ρ c 3).trans ((msg_final (V1 m ρ) c).trans ?_)
  unfold msgs
  rw [V1_arg0 m ρ c, V1_arg3 m ρ c, V1_arg4 m ρ c]

/-- Region 1's first output array, at the run's end, holds the first result. -/
theorem out0_at_exit (c : Dev nD) : W4 m ρ c (Proc.devRef .tc main_v15_0) = out0 m c := by
  refine (W4_arr m ρ c 9).trans ((mix_final (V3 m ρ) c).trans ?_)
  unfold out0
  rw [V3_arg0 m ρ c, V3_agg m ρ c, V3_arg2 m ρ c, V3_arg5 m ρ c, V3_arg6 m ρ c, V3_arg7 m ρ c, V3_arg8 m ρ c,
    msgs_at_exit m ρ c]

/-- Region 1's second output array, at the run's end, holds the second result. -/
theorem out1_at_exit (c : Dev nD) : W4 m ρ c (Proc.devRef .tc main_v15_1) = out1 m c := by
  refine (W4_arr m ρ c 10).trans ((head_final (V3 m ρ) c).trans ?_)
  unfold out1
  rw [V3_arg0 m ρ c, V3_agg m ρ c, V3_arg2 m ρ c, V3_arg5 m ρ c, V3_arg6 m ρ c, V3_arg7 m ρ c, V3_arg8 m ρ c,
    V3_arg9 m ρ c, V3_arg10 m ρ c, msgs_at_exit m ρ c]

/-- The run of the idealized kernel program: it terminates, nothing faulting, with the two results at `out0` and
    `out1` of the launch arguments and the arguments unchanged. -/
theorem run : θ_run defs (onTc (τ := τ) (main (F := Ideal))) ⟨m, fun _ => 0, ρ⟩ (fun r => ∀ c : Dev nD,
      r.2.mem ((c.tc : Thread nD τ).loc main_v15_0) = out0 m c
      ∧ r.2.mem ((c.tc : Thread nD τ).loc main_v15_1) = out1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono
    (fun _ h c => ⟨(h c).1.trans (out0_at_exit m ρ c), (h c).2.1.trans (out1_at_exit m ρ c), (h c).2.2⟩)
    (Cert.KernelIdeal.GenP.run_named (F := Ideal) m ρ)

end Cert.KernelValue

end
-- ==== Proof.lean ====
/-
  A message-passing layer on 50000 nodes and 800000 edges: per node a message m = x·W_msg + b_msg; the messages gathered at
  the edges' sources and added up at the edges' destinations; then per node an update conv = [x ‖ aggr]·W_upd + b_upd, a
  gate g = logistic([conv ‖ importance]·W_gate + b_gate), the mix out = g·conv + (1 − g)·x and the propagated importance
  out·W_imp + b_imp.

  The kernel program computes the messages in one pipelined region over 25 blocks of 2000 nodes, aggregates them on the
  host, and computes the update, the gate, the mix and the importance in a second region over the same 25 blocks; the
  reference computes everything on the host over whole arrays. On extended reals a change of float format is the
  identity, a matrix product into a zero accumulator is the plain sum, and the logistic function is 1 / (1 + e^(−z)) in
  either spelling, so both programs compute, node by node, the same row functions (Proof/Rows.lean) of row r of the
  features, of the aggregated messages and of the importance column. The aggregation is the same chain of host
  operations in both programs, applied to equal message arrays; it is carried as one function and never opened. No step
  uses a law that fails at an infinity, so the precondition is not opened.

  The three frames: the two kernel programs' are the several-regions launch over each region's body triple; the
  reference's is its run with the results dropped. The idealization rewrote no operation.
-/
import proofs.«155361_j71459665871600_1_alg».proof.Defs
import proofs.«155361_j71459665871600_1_alg».proof.Proof.Gen.Kernel
import proofs.«155361_j71459665871600_1_alg».proof.Proof.Gen.Kernel.Frame
import proofs.«155361_j71459665871600_1_alg».proof.Proof.Gen.KernelIdeal
import proofs.«155361_j71459665871600_1_alg».proof.Proof.Gen.KernelIdeal.Frame
import proofs.«155361_j71459665871600_1_alg».proof.Proof.Gen.ReferenceIdeal
import proofs.«155361_j71459665871600_1_alg».proof.Proof.Gen.Pre_finite_inputs
import proofs.«155361_j71459665871600_1_alg».proof.Proof.RefFinal
import proofs.«155361_j71459665871600_1_alg».proof.Proof.RefRows
import proofs.«155361_j71459665871600_1_alg».proof.Proof.KernelValue

set_option maxRecDepth 16384

noncomputable section

namespace Cert.Proof

open Idealize.ShloMosaic Idealize.SL.Sem

/-- The aggregation is one function in both programs: the same host operations over the same dimension numbers. -/
theorem agg_bridge (msg : Cert.Rows.Mat 50000 128)
    (x1 : (⟨Cert.KernelIdeal.S2x800000, .i32⟩ : BufTy).Contents (Elt Ideal)) :
    Cert.KernelHost.aggK msg x1 = Cert.RefRows.aggOf msg x1 := rfl

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2) (Cert.RefFinal.run (F := Ideal) m ρ)

/-- Both idealized programs, from memories that agree on the arguments, end with every node's gated mix and
    propagated importance of those arguments. -/
theorem algebraic : Cert.algebraic_KernelIdeal_ReferenceIdeal := by
  intro m ρ m' ρ' _ hagree
  refine ⟨fun c => Cert.KernelValue.out0 m c, fun c => Cert.KernelValue.out1 m c, Cert.KernelValue.run m ρ, ?_⟩
  refine (θ_run Cert.ReferenceIdeal.defs _ _).mono (fun _ h c => ⟨(h c).1.trans ?_, (h c).2.1.trans ?_, (h c).2.2⟩)
    (Cert.RefFinal.run (F := Ideal) m' ρ')
  · obtain ⟨e0, e1, e2, e3, e4, e5, e6, e7, e8, e9, e10⟩ := hagree c
    rw [Cert.RefRows.mix_eq, Cert.RefRows.agg_eq, Cert.RefRows.msg_eq,
      e0, e1, e2, e3, e4, e5, e6, e7, e8]
    unfold Cert.KernelValue.out0 Cert.KernelValue.msgs
    rw [← agg_bridge]
  · obtain ⟨e0, e1, e2, e3, e4, e5, e6, e7, e8, e9, e10⟩ := hagree c
    rw [Cert.RefRows.head_eq, Cert.RefRows.agg_eq, Cert.RefRows.msg_eq,
      e0, e1, e2, e3, e4, e5, e6, e7, e8, e9, e10]
    unfold Cert.KernelValue.out1 Cert.KernelValue.msgs
    rw [← agg_bridge]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
